-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S256x256 : Shape := ⟨2, ![256, 256]⟩
abbrev S256 : Shape := ⟨1, ![256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x4096x256 .f32) (main_arg1 : FVec F S16x4096x256 .f32) (main_arg2 : FVec F S16x4096x256 .f32) (main_arg3 : FVec F S256x256 .f32) (main_arg4 : FVec F S256 .f32) (main_arg5 : FVec F S256x256 .f32) (main_arg6 : FVec F S256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_v9 : FVec F S16x4096x256 .f32 := Host.absf main_arg2
  let main_cst_2 : FVec F S_ .f32 := constant S_ .f32 0x7F800000#32
  let main_v10 : FVec F S16x4096x256 .f32 := broadcastInDim S16x4096x256 ![] bcast_S_S16x4096x256 main_cst_2
  let main_v11 : IVec S16x4096x256 1 := cmpf .olt main_v9 main_v10
  let main_c_3 : IVec S_ 1 := constantI S_ 1 1#1
  let main_v12 : IVec S_ 1 := (fun x v => Host.reduce IntOp.andi x v reducesTo_S16x4096x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16x4096x256 : Shape := ⟨3, ![16, 4096, 256]⟩
abbrev S256x256 : Shape := ⟨2, ![256, 256]⟩
abbrev S256 : Shape := ⟨1, ![256]⟩
abbrev S1x256 : Shape := ⟨2, ![1, 256]⟩
abbrev S16x1x256 : Shape := ⟨3, ![16, 1, 256]⟩
abbrev S1x4096x256 : Shape := ⟨3, ![1, 4096, 256]⟩
abbrev S1x1x256 : Shape := ⟨3, ![1, 1, 256]⟩
abbrev S4096x256 : Shape := ⟨2, ![4096, 256]⟩
abbrev S16x256x256 : Shape := ⟨3, ![16, 256, 256]⟩
abbrev S1x256x256 : Shape := ⟨3, ![1, 256, 256]⟩
abbrev S4096 : Shape := ⟨1, ![4096]⟩
abbrev S4096x1 : Shape := ⟨2, ![4096, 1]⟩

abbrev nBuf : Space → Nat
  | .hbm => 12
  | .vmem => 24
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S16x1x256, .f32⟩
  | .hbm, ⟨10, _⟩ => ⟨S16x256x256, .f32⟩
  | .hbm, ⟨11, _⟩ => ⟨S16x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S1x256, .f32⟩
  | .local _ .vmem, ⟨4, _⟩ => ⟨S1x1x256, .f32⟩
  | .local _ .vmem, ⟨5, _⟩ => ⟨S1x1x256, .f32⟩
  | .local _ .vmem, ⟨6, _⟩ => ⟨S1x4096x256, .f32⟩
  | .local _ .vmem, ⟨7, _⟩ => ⟨S1x4096x256, .f32⟩
  | .local _ .vmem, ⟨8, _⟩ => ⟨S1x4096x256, .f32⟩
  | .local _ .vmem, ⟨9, _⟩ => ⟨S1x4096x256, .f32⟩
  | .local _ .vmem, ⟨10, _⟩ => ⟨S256x256, .f32⟩
  | .local _ .vmem, ⟨11, _⟩ => ⟨S1x256, .f32⟩
  | .local _ .vmem, ⟨12, _⟩ => ⟨S1x1x256, .f32⟩
  | .local _ .vmem, ⟨13, _⟩ => ⟨S1x1x256, .f32⟩
  | .local _ .vmem, ⟨14, _⟩ => ⟨S1x256x256, .f32⟩
  | .local _ .vmem, ⟨15, _⟩ => ⟨S1x256x256, .f32⟩
  | .local _ .vmem, ⟨16, _⟩ => ⟨S1x4096x256, .f32⟩
  | .local _ .vmem, ⟨17, _⟩ => ⟨S1x4096x256, .f32⟩
  | .local _ .vmem, ⟨18, _⟩ => ⟨S256x256, .f32⟩
  | .local _ .vmem, ⟨19, _⟩ => ⟨S1x256, .f32⟩
  | .local _ .vmem, ⟨20, _⟩ => ⟨S1x256x256, .f32⟩
  | .local _ .vmem, ⟨21, _⟩ => ⟨S1x256x256, .f32⟩
  | .local _ .vmem, ⟨22, _⟩ => ⟨S1x4096x256, .f32⟩
  | .local _ .vmem, ⟨23, _⟩ => ⟨S1x4096x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x4096x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S4096x256 : S1x256.Broadcasts S4096x256
  reduces_S4096x256_S256 : S4096x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  reduces_S4096x256_S4096 : S4096x256.Reduces [1] S4096
  shapeCasts_S4096_S4096x1 : S4096.ShapeCasts S4096x1
  broadcasts_S4096x1_S4096x256 : S4096x1.Broadcasts S4096x256
  shapeCasts_S4096x256_S1x4096x256 : S4096x256.ShapeCasts S1x4096x256
  dot_S4096x256_S256x256_S4096x256_1_0_0_1_n_n_wf : DotDims.WF S4096x256 S256x256 S4096x256 [1] [0] [0] [1] [] []
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x4096x256.size a
  hwx0_0 : ∀ i : grid0.Coords, EltTy.bits .f32 = 32 ∨ (Rect.block (s := S16x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S16x1x256.size a
  hwx0_3 : ∀ i : grid0.Coords, EltTy.bits .f32 = 32 ∨ (Rect.block (s := S16x1x256) S1x1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S16x4096x256.size a
  hwx1_0 : ∀ i : grid1.Coords, EltTy.bits .f32 = 32 ∨ (Rect.block (s := S16x4096x256) S1x4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S16x4096x256.size a
  hwx1_1 : ∀ i : grid1.Coords, EltTy.bits .f32 = 32 ∨ (Rect.block (s := S16x4096x256) S1x4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S16x1x256.size a
  hwx1_4 : ∀ i : grid1.Coords, EltTy.bits .f32 = 32 ∨ (Rect.block (s := S16x1x256) S1x1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x256.size a ≤ S16x256x256.size a
  hwx1_5 : ∀ i : grid1.Coords, EltTy.bits .f32 = 32 ∨ (Rect.block (s := S16x256x256) S1x256x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x256.size a ≤ S16x4096x256.size a
  hwx2_0 : ∀ i : grid2.Coords, EltTy.bits .f32 = 32 ∨ (Rect.block (s := S16x4096x256) S1x4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x256.size a ≤ S16x256x256.size a
  hwx2_3 : ∀ i : grid2.Coords, EltTy.bits .f32 = 32 ∨ (Rect.block (s := S16x256x256) S1x256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4096x256.size a ≤ S16x4096x256.size a
  hwx2_4 : ∀ i : grid2.Coords, EltTy.bits .f32 = 32 ∨ (Rect.block (s := S16x4096x256) S1x4096x256.size (cc2_transform_4 i) (hinb2_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S1x4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x256x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x4096x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16x4096x256 : Shape := ⟨3, ![16, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S16x256 : Shape := ⟨2, ![16, 256]⟩
abbrev S16x1x256 : Shape := ⟨3, ![16, 1, 256]⟩
abbrev S16x4096 : Shape := ⟨2, ![16, 4096]⟩
abbrev S16x4096x1 : Shape := ⟨3, ![16, 4096, 1]⟩
abbrev S16x256x256 : Shape := ⟨3, ![16, 256, 256]⟩

abbrev nBuf : Space → Nat
  | .hbm => 77
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x4096x256, .f32⟩
  | .hbm, ⟨8, _⟩ => ⟨S1x1x256, .f32⟩
  | .hbm, ⟨9, _⟩ => ⟨S16x4096x256, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .f32⟩
  | .hbm, ⟨14, _⟩ => ⟨S16x4096x256, .f32⟩
  | .hbm, ⟨15, _⟩ => ⟨S16x4096x256, .f32⟩
  | .hbm, ⟨16, _⟩ => ⟨S_, .f32⟩
  | .hbm, ⟨17, _⟩ => ⟨S16x4096x256, .f32⟩
  | .hbm, ⟨18, _⟩ => ⟨S16x4096x256, .f32⟩
  | .hbm, ⟨19, _⟩ => ⟨S16x4096x256, .f32⟩
  | .hbm, ⟨20, _⟩ => ⟨S1x1x256, .f32⟩
  | .hbm, ⟨21, _⟩ => ⟨S16x4096x256, .f32⟩
  | .hbm, ⟨22, _⟩ => ⟨S16x4096x256, .f32⟩
  | .hbm, ⟨23, _⟩ => ⟨S16x4096x256, .f32⟩
  | .hbm, ⟨24, _⟩ => ⟨S16x4096x256, .f32⟩
  | .hbm, ⟨25, _⟩ => ⟨S_, .f32⟩
  | .hbm, ⟨26, _⟩ => ⟨S16x4096x256, .f32⟩
  | .hbm, ⟨27, _⟩ => ⟨S16x4096x256, .f32⟩
  | .hbm, ⟨28, _⟩ => ⟨S_, .f32⟩
  | .hbm, ⟨29, _⟩ => ⟨S16x4096x256, .f32⟩
  | .hbm, ⟨30, _⟩ => ⟨S16x4096x256, .f32⟩
  | .hbm, ⟨31, _⟩ => ⟨S_, .f32⟩
  | .hbm, ⟨32, _⟩ => ⟨S16x256, .f32⟩
  | .hbm, ⟨33, _⟩ => ⟨S16x1x256, .f32⟩
  | .hbm, ⟨34, _⟩ => ⟨S_, .f32⟩
  | .hbm, ⟨35, _⟩ => ⟨S16x1x256, .f32⟩
  | .hbm, ⟨36, _⟩ => ⟨S16x1x256, .f32⟩
  | .hbm, ⟨37, _⟩ => ⟨S16x4096x256, .f32⟩
  | .hbm, ⟨38, _⟩ => ⟨S16x4096x256, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x256, .f32⟩
  | .hbm, ⟨46, _⟩ => ⟨S16x4096x256, .f32⟩
  | .hbm, ⟨47, _⟩ => ⟨S16x4096x256, .f32⟩
  | .hbm, ⟨48, _⟩ => ⟨S_, .f32⟩
  | .hbm, ⟨49, _⟩ => ⟨S16x256, .f32⟩
  | .hbm, ⟨50, _⟩ => ⟨S_, .f32⟩
  | .hbm, ⟨51, _⟩ => ⟨S16x256, .f32⟩
  | .hbm, ⟨52, _⟩ => ⟨S16x256, .f32⟩
  | .hbm, ⟨53, _⟩ => ⟨S16x1x256, .f32⟩
  | .hbm, ⟨54, _⟩ => ⟨S16x4096x256, .f32⟩
  | .hbm, ⟨55, _⟩ => ⟨S16x4096x256, .f32⟩
  | .hbm, ⟨56, _⟩ => ⟨S16x4096x256, .f32⟩
  | .hbm, ⟨57, _⟩ => ⟨S_, .f32⟩
  | .hbm, ⟨58, _⟩ => ⟨S16x256, .f32⟩
  | .hbm, ⟨59, _⟩ => ⟨S16x1x256, .f32⟩
  | .hbm, ⟨60, _⟩ => ⟨S16x4096x256, .f32⟩
  | .hbm, ⟨61, _⟩ => ⟨S16x4096x256, .f32⟩
  | .hbm, ⟨62, _⟩ => ⟨S16x256x256, .f32⟩
  | .hbm, ⟨63, _⟩ => ⟨S16x4096x256, .f32⟩
  | .hbm, ⟨64, _⟩ => ⟨S_, .f32⟩
  | .hbm, ⟨65, _⟩ => ⟨S16x4096, .f32⟩
  | .hbm, ⟨66, _⟩ => ⟨S16x4096x1, .f32⟩
  | .hbm, ⟨67, _⟩ => ⟨S16x4096x1, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S_, .f32⟩
  | .hbm, ⟨73, _⟩ => ⟨S16x4096x1, .f32⟩
  | .hbm, ⟨74, _⟩ => ⟨S16x4096x1, .f32⟩
  | .hbm, ⟨75, _⟩ => ⟨S16x4096x256, .f32⟩
  | .hbm, ⟨76, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  bcast_S_S16x4096x256 : S_.BroadcastsInDim S16x4096x256 (![] : Fin 0 → Fin S16x4096x256.rank)
  reducesTo_S16x4096x256_S16x256_d1 : S16x4096x256.ReducesTo [1] S16x256
  h_S_ : 0 < S_.numel
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x4096x256_0_1_2 : S16x1x256.BroadcastsInDim S16x4096x256 (![0, 1, 2] : Fin 3 → Fin S16x4096x256.rank)
  reducesTo_S16x4096x256_S16x4096_d2 : S16x4096x256.ReducesTo [2] S16x4096
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)
  bcast_S_S16x256 : S_.BroadcastsInDim S16x256 (![] : Fin 0 → Fin S16x256.rank)
  dot_S16x4096x256_S256x256_S16x4096x256_2_0_01_1_n_n_wf : DotDims.WF S16x4096x256 S256x256 S16x4096x256 [2] [0] [0, 1] [1] [] []
  dot_S16x4096x256_S16x4096x256_S16x256x256_1_1_2_2_0_0_wf : DotDims.WF S16x4096x256 S16x4096x256 S16x256x256 [1] [1] [2] [2] [0] [0]
  dot_S16x4096x256_S16x256x256_S16x4096x256_2_1_1_2_0_0_wf : DotDims.WF S16x4096x256 S16x256x256 S16x4096x256 [2] [1] [1] [2] [0] [0]

variable [Facts₀]

def dot_S16x4096x256_S256x256_S16x4096x256_2_0_01_1_n_n : DotDims S16x4096x256 S256x256 S16x4096x256 where
  lhsContracting := [2]
  rhsContracting := [0]
  lhsNonContracting := [0, 1]
  rhsNonContracting := [1]
  lhsBatch := []
  rhsBatch := []
  wf := dot_S16x4096x256_S256x256_S16x4096x256_2_0_01_1_n_n_wf
def dot_S16x4096x256_S16x4096x256_S16x256x256_1_1_2_2_0_0 : DotDims S16x4096x256 S16x4096x256 S16x256x256 where
  lhsContracting := [1]
  rhsContracting := [1]
  lhsNonContracting := [2]
  rhsNonContracting := [2]
  lhsBatch := [0]
  rhsBatch := [0]
  wf := dot_S16x4096x256_S16x4096x256_S16x256x256_1_1_2_2_0_0_wf
def dot_S16x4096x256_S16x256x256_S16x4096x256_2_1_1_2_0_0 : DotDims S16x4096x256 S16x256x256 S16x4096x256 where
  lhsContracting := [2]
  rhsContracting := [1]
  lhsNonContracting := [1]
  rhsNonContracting := [2]
  lhsBatch := [0]
  rhsBatch := [0]
  wf := dot_S16x4096x256_S16x256x256_S16x4096x256_2_1_1_2_0_0_wf

class Facts : Prop extends Facts₀ where

variable [Facts]
-- ==== Proof.Spec.lean ====
/-
  The attention map, written once as plain sums and maxima over coordinates of extended reals.

  For arrays X [16, 4096, 256], W [256, 256] and a bias b over 256 features, the FEATURE MAP is
  feat β n e = σ(Σ_d X[β, n, d] · W[d, e] + b[e]) with σ the logistic function. From the keys' features φk
  and the values V: the column sums s[β, e] = Σ_n φk[β, n, e]; the scores y[β, n, e] = φk[β, n, e] / (s[β, e] + ε) · V[β, n, e];
  their softmax along n (the competition weights), each column shifted by its maximum; and the state
  kv[β, d, e] = Σ_n φk[β, n, d] · w[β, n, e]. From the queries' features φq: the row sums r[β, n] = Σ_d φq[β, n, d], and the
  result σ(r[β, n]) · Σ_d (φq[β, n, d] / (r[β, n] + ε)) · kv[β, d, e].
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A function of (batch, position, feature). -/
abbrev T3 : Type := Fin 16 → Fin 4096 → Fin 256 → EReal

/-- The small constant added to both normalizers, as the extended real its pattern denotes. -/
def eps : EReal := Ideal.ofBits .f32 0x358637BD#32

/-- The feature map: the logistic function of the affine image of a row. -/
def feat (X : (⟨3, ![16, 4096, 256]⟩ : Shape).Idx → EReal) (W : (⟨2, ![256, 256]⟩ : Shape).Idx → EReal)
    (b : Fin 256 → EReal) : T3 :=
  fun β n e => Ideal.logistic ((∑ d : Fin 256, X (ix3 β n d) * W (ix2 d e)) + b e)

/-- The sum of a feature over the positions of one batch. -/
def colSum (φ : T3) (β : Fin 16) (e : Fin 256) : EReal := ∑ n : Fin 4096, φ β n e

/-- The scores: the feature over its normalizer, times the value. -/
def scored (φ : T3) (s : Fin 16 → Fin 256 → EReal) (V : (⟨3, ![16, 4096, 256]⟩ : Shape).Idx → EReal) : T3 :=
  fun β n e => Ideal.div (φ β n e) (s β e + eps) * V (ix3 β n e)

/-- The largest score of a column, over the positions of one batch. -/
def colMax (y : T3) (β : Fin 16) (e : Fin 256) : EReal :=
  (Finset.univ : Finset (Fin 4096)).fold max ⊥ (fun n => y β n e)

/-- The softmax of the scores along the positions: each column shifted by its maximum. -/
def compet (y : T3) : T3 :=
  fun β n e => Ideal.div (Ideal.exp (y β n e - colMax y β e)) (∑ n' : Fin 4096, Ideal.exp (y β n' e - colMax y β e))

/-- The state matrix of one batch: features against weights, summed over the positions. -/
def kv (φ w : T3) (β : Fin 16) (d e : Fin 256) : EReal := ∑ n : Fin 4096, φ β n d * w β n e

/-- The sum of a position's features. -/
def rowSum (φ : T3) (β : Fin 16) (n : Fin 4096) : EReal := ∑ d : Fin 256, φ β n d

/-- The gated aggregate of one position. -/
def result (φ : T3) (st : Fin 16 → Fin 256 → Fin 256 → EReal) : T3 :=
  fun β n e => Ideal.logistic (rowSum φ β n) * ∑ d : Fin 256, Ideal.div (φ β n d) (rowSum φ β n + eps) * st β d e

/-- The whole map, from the seven arrays, as an array over [16, 4096, 256]. -/
def G (Q K V : (⟨3, ![16, 4096, 256]⟩ : Shape).Idx → EReal) (Wq : (⟨2, ![256, 256]⟩ : Shape).Idx → EReal)
    (bq : (⟨1, ![256]⟩ : Shape).Idx → EReal) (Wk : (⟨2, ![256, 256]⟩ : Shape).Idx → EReal)
    (bk : (⟨1, ![256]⟩ : Shape).Idx → EReal) : (⟨3, ![16, 4096, 256]⟩ : Shape).Idx → EReal :=
  fun j =>
    result (feat Q Wq fun e => bq (ix1 e))
      (kv (feat K Wk fun e => bk (ix1 e))
        (compet (scored (feat K Wk fun e => bk (ix1 e)) (colSum (feat K Wk fun e => bk (ix1 e))) V)))
      ⟨(j 0).val, (j 0).isLt⟩ ⟨(j 1).val, (j 1).isLt⟩ ⟨(j 2).val, (j 2).isLt⟩

end Cert.Spec

end
-- ==== Proof.Reg0.lean ====
/-
  Region 0 (the column sums of the keys' features). Grid point t is batch t: it reads block t of the keys
  [1, 4096, 256], the whole weight matrix and the bias row, and writes block t of the [16, 1, 256] result: at feature e
  the sum over the 4096 positions of σ(Σ_d K[t, n, d] · W[d, e] + b[e]).
-/
import proofs.«109760_j35330400977338_1_alg».proof.Proof.Gen.KernelIdeal.Frame
import proofs.«109760_j35330400977338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered: any
variable (V : (c : Dev nD) → (b : Ref sig .tc) → Buf (Elt Ideal) ((c : Thread nD τ).loc b))

/-! ## The product of a [4096, 256] block with the [256, 256] weights, read at (n, e) -/

/-- The left operand's row coordinate is the result's row. -/
theorem lhs_axis0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- The left operand's column coordinate is the contraction position. -/
theorem lhs_axis1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's row coordinate is the contraction position. -/
theorem rhs_axis0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- The right operand's column coordinate is the result's column. -/
theorem rhs_axis1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The matrix product into the zero accumulator, at (n, e): the sum over d of row n of the left operand against
    column e of the right. -/
theorem matmul_at {φ₁ φ₂ : FTy} (a : FVec Ideal S4096x256 φ₁) (b : FVec Ideal S256x256 φ₂) (n : Fin 4096) (e : Fin 256) :
    matmul (F := Ideal) dot_S4096x256_S256x256_S4096x256_1_0_0_1_n_n none a b (constant (F := Ideal) S4096x256 .f32 0x00000000#32) (ix2 n e)
      = ∑ d : Fin 256, a (ix2 n d) * b (ix2 d e) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 n e) ((ValueIdx.contrEquiv1 dot_S4096x256_S256x256_S4096x256_1_0_0_1_n_n 256 rfl rfl).symm k) = ix2 n k := funext fun a => Fin.ext (by
    match a with
    | ⟨0, _⟩ => exact lhs_axis0 _ _
    | ⟨1, _⟩ => exact (lhs_axis1 _ _).trans hk)
  have er : dot_S4096x256_S256x256_S4096x256_1_0_0_1_n_n.rhsIdx (ix2 n e) ((ValueIdx.contrEquiv1 dot_S4096x256_S256x256_S4096x256_1_0_0_1_n_n 256 rfl rfl).symm k) = ix2 k e := funext fun a => Fin.ext (by
    match a with
    | ⟨0, _⟩ => exact (rhs_axis0 _ _).trans hk
    | ⟨1, _⟩ => exact rhs_axis1 _ _)
  rw [el, er]

/-! ## The sum along the positions -/

/-- The reduction over axis 0 of a [4096, 256] block, at feature e: the sum over the positions n of the block at (n, e). -/
theorem colsum_at (x : FVec Ideal S4096x256 .f32) (e : Fin 256) :
    multiReduction (F := Ideal) .add [0] S256 x 0x00000000#32 reduces_S4096x256_S256 (.inl rfl) rfl (ix1 e)
      = ∑ n : Fin 4096, x (ix2 n e) := by
  refine (Ideal.multiReduction_add_single x 0x00000000#32 reduces_S4096x256_S256 (.inl rfl) rfl (ix1 e)).trans ?_
  refine Finset.sum_congr rfl fun n _ => ?_
  congr 1
  funext a; apply Fin.ext
  match a with
  | ⟨0, _⟩ => rfl
  | ⟨1, _⟩ => rfl

/-! ## The body's payload at an index -/

/-- What the body stores at (0, 0, e): the sum over the positions of the logistic function of the affine image of the
    block's row. -/
theorem pay_at (x0 : Vec Ideal S1x4096x256 .f32) (x1 : Vec Ideal S256x256 .f32) (x2 : Vec Ideal S1x256 .f32)
    (u v : Fin 1) (e : Fin 256) :
    (k0_pay1 (F := Ideal) x0 x1 x2 : S1x1x256.Idx → EReal) (ix3 u v e)
      = ∑ n : Fin 4096, Ideal.logistic ((∑ d : Fin 256, x0 (ix3 (0 : Fin 1) n d) * x1 (ix2 d e)) + x2 (ix2 (0 : Fin 1) e)) := by
  unfold k0_pay1
  rw [shapeCast_ab_1ab_apply, shapeCast_a_1a_apply, colsum_at]
  refine Finset.sum_congr rfl fun n _ => ?_
  show Ideal.logistic (_ + _) = _
  rw [matmul_at, broadcastTo_1b_ab_apply, shapeCast_self]
  congr 2
  refine Finset.sum_congr rfl fun d _ => ?_
  rw [truncf_apply, truncf_apply, shapeCast_1ab_ab_apply]

/-! ## What the body leaves in the output's buffer -/

theorem zero3 : (![0, 0, 0] : Fin 3 → Nat) = fun _ => 0 := funext fun a => by fin_cases a <;> rfl
theorem zero2 : (![0, 0] : Fin 2 → Nat) = fun _ => 0 := funext fun a => by fin_cases a <;> rfl

/-- The output's buffer after the body is the payload of the three input blocks: every access is the whole buffer. -/
theorem out_eq (x0 : Vec Ideal S1x4096x256 .f32) (x1 : Vec Ideal S256x256 .f32) (x2 : Vec Ideal S1x256 .f32) :
    out0_3 (F := Ideal) x0 x1 x2 = k0_pay1 (F := Ideal) x0 x1 x2 := by
  unfold out0_3
  rw [View.canon_unit_zero zero3]
  simp only [View.ld_unit_zero (S := S1x4096x256) zero3, View.ld_unit_zero (S := S256x256) zero2, View.ld_unit_zero (S := S1x256) zero2]

/-! ## The blocks, read where the arrays hold them -/

/-- The block indices over the grid: point t reads batch t of the keys and writes batch t of the result; the weights
    and the bias row are whole. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point t's block of the keys at (0, n, d) is the keys at (t, n, d). -/
theorem keys_blk (c : Dev nD) (t : Fin cfg0.N) (u : Fin 1) (n : Fin 4096) (d : Fin 256) (β : Fin 16) (hβ : β.val = t.val) :
    (iblk0 (F := Ideal) V c 0 t : S1x4096x256.Idx → EReal) (ix3 u n d) = (V c main_arg1 : S16x4096x256.Idx → EReal) (ix3 β n d) := by
  obtain ⟨e0, e1, e2, -⟩ := idx_facts t
  unfold iblk0
  rw [View.read_apply]
  show (V c main_arg1 : S16x4096x256.Idx → EReal) _ = _
  congr 1
  funext a
  apply Fin.ext
  match a with
  | ⟨0, _⟩ => show win0_0.index t (0 : Fin 3) * 1 + 1 * u.val = β.val; rw [e0, hβ]; omega
  | ⟨1, _⟩ => show win0_0.index t (1 : Fin 3) * 4096 + 1 * n.val = n.val; rw [e1]; omega
  | ⟨2, _⟩ => show win0_0.index t (2 : Fin 3) * 256 + 1 * d.val = d.val; rw [e2]; omega

/-- Every point's block of the weights is the weights. -/
theorem weights_blk (c : Dev nD) (t : Fin cfg0.N) (d e : Fin 256) :
    (iblk0 (F := Ideal) V c 1 t : S256x256.Idx → EReal) (ix2 d e) = (V c main_arg5 : S256x256.Idx → EReal) (ix2 d e) := by
  obtain ⟨-, -, -, e0, e1, -⟩ := idx_facts t
  unfold iblk0
  rw [View.read_apply]
  show (V c main_arg5 : S256x256.Idx → EReal) _ = _
  congr 1
  funext a
  apply Fin.ext
  match a with
  | ⟨0, _⟩ => show win0_1.index t (0 : Fin 2) * 256 + 1 * d.val = d.val; rw [e0]; omega
  | ⟨1, _⟩ => show win0_1.index t (1 : Fin 2) * 256 + 1 * e.val = e.val; rw [e1]; omega

/-- Every point's block of the bias row is the bias row. -/
theorem bias_blk (c : Dev nD) (t : Fin cfg0.N) (u : Fin 1) (e : Fin 256) :
    (iblk0 (F := Ideal) V c 2 t : S1x256.Idx → EReal) (ix2 u e) = (V c main_v1 : S1x256.Idx → EReal) (ix2 u e) := by
  obtain ⟨-, -, -, -, -, e0, e1, -⟩ := idx_facts t
  unfold iblk0
  rw [View.read_apply]
  show (V c main_v1 : S1x256.Idx → EReal) _ = _
  congr 1
  funext a
  apply Fin.ext
  match a with
  | ⟨0, _⟩ => show win0_2.index t (0 : Fin 2) * 1 + 1 * u.val = u.val; rw [e0]; omega
  | ⟨1, _⟩ => show win0_2.index t (1 : Fin 2) * 256 + 1 * e.val = e.val; rw [e1]; omega

/-! ## One point's write-back -/

/-- The column sums of the features of the region's inputs, as an array over [16, 1, 256]. -/
abbrev colSums (c : Dev nD) : S16x1x256.Idx → EReal := fun j =>
  Cert.Spec.colSum
    (Cert.Spec.feat (V c main_arg1) (V c main_arg5) (fun e => (V c main_v1 : S1x256.Idx → EReal) (ix2 (0 : Fin 1) e)))
    ⟨(j 0).val, (j 0).isLt⟩ ⟨(j 2).val, (j 2).isLt⟩

/-- At point t the payload of the three blocks, at (0, 0, e), is the column sum of batch t at feature e. -/
theorem point_eq (c : Dev nD) (t : Fin cfg0.N) (u v : Fin 1) (e : Fin 256) (β : Fin 16) (e' : Fin 256)
    (hβ : β.val = t.val) (he : e'.val = e.val) :
    (k0_pay1 (F := Ideal) (iblk0 V c 0 t) (iblk0 V c 1 t) (iblk0 V c 2 t) : S1x1x256.Idx → EReal) (ix3 u v e)
      = Cert.Spec.colSum
          (Cert.Spec.feat (V c main_arg1) (V c main_arg5) (fun e => (V c main_v1 : S1x256.Idx → EReal) (ix2 (0 : Fin 1) e))) β e' := by
  obtain rfl : e' = e := Fin.ext he
  refine (pay_at (iblk0 V c 0 t) (iblk0 V c 1 t) (iblk0 V c 2 t) u v e').trans ?_
  unfold Cert.Spec.colSum Cert.Spec.feat
  refine Finset.sum_congr rfl fun n _ => ?_
  congr 2
  · refine Finset.sum_congr rfl fun d _ => ?_
    congr 1
    · exact keys_blk V c t 0 n d β hβ
    · exact weights_blk V c t d e'
  · exact bias_blk V c t 0 e'

/-- What point t writes back is block t of the column sums. -/
theorem flushed_eq (c : Dev nD) (t : Fin cfg0.N) :
    (dat0 (F := Ideal) V c).flushed 3 t = ((cfg0.win 3).blk t).view.read (Elt Ideal) (colSums V c) := by
  show (cfg0.win 3).cut (grid0.coords t) ((dat0 (F := Ideal) V c).after 3 t) = _
  rw [after0_3, out_eq]
  obtain ⟨-, -, -, -, -, -, -, e0, e1, e2⟩ := idx_facts t
  refine funext fun (y : S1x1x256.Idx) => ?_
  rw [View.read_apply]
  obtain ⟨u, v, e, rfl⟩ : ∃ (u v : Fin 1) (e : Fin 256), y = ix3 u v e := ⟨y 0, y 1, y 2, eq_ix3 y⟩
  refine point_eq V c t u v e _ _ ?_ ?_
  · show win0_3.index t (0 : Fin 3) * 1 + 1 * u.val = t.val; rw [e0]; omega
  · show win0_3.index t (2 : Fin 3) * 256 + 1 * e.val = e.val; rw [e2]; omega

/-! ## The blocks cover the array -/

/-- An index of the result is in point t's block iff each coordinate is in the block's range on its axis. -/
theorem mem_blk (t : Fin cfg0.N) (i : S16x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v2).slice (win0_3.rect t)).set ↔ _
  rw [View.set_slice_whole, Rect.mem_set_unit]
  exact Iff.rfl

/-- Batch β of the result is point β's block. -/
theorem cover (i : S16x1x256.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 256 := (i 2).isLt
  refine ⟨⟨(i 0).val, by rw [show cfg0.N = 16 from N_0]; exact h0⟩, flush0_3 _, ?_⟩
  obtain ⟨-, -, -, -, -, -, -, e0, e1, e2⟩ := idx_facts ⟨(i 0).val, by rw [show cfg0.N = 16 from N_0]; exact h0⟩
  rw [mem_blk]
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 256 ≤ (i 2).val ∧ (i 2).val < win0_3.index _ (2 : Fin 3) * 256 + 256; rw [e2]; omega

/-- After region 0 its result array holds, at (β, 0, e), the column sum of the features of the region's own
    inputs as it finds them: the keys in `main_arg1`, the weights in `main_arg5`, the bias row in `main_v1`. -/
theorem final (c : Dev nD) :
    ((dat0 (F := Ideal) V c).arrAt 3 cfg0.N : S16x1x256.Idx → EReal)
      = fun j => Cert.Spec.colSum
          (Cert.Spec.feat (V c main_arg1) (V c main_arg5) (fun e => (V c main_v1 : S1x256.Idx → EReal) (ix2 (0 : Fin 1) e)))
          ⟨(j 0).val, (j 0).isLt⟩ ⟨(j 2).val, (j 2).isLt⟩ :=
  (dat0 (F := Ideal) V c).arrAt_eq_of_cover 3 (colSums V c) (fun t _ => flushed_eq V c t) cover

end Cert.KernelIdeal.Reg0

end
-- ==== Proof.Reg1.lean ====
/-
  Region 1 (the state matrix). Grid point t is batch t: from block t of the keys and of the values, the weights,
  the bias row and block t of the column sums it writes block t of the [16, 256, 256] result: the features of the keys
  against the softmax, along the positions, of feature / (column sum + ε) · value.
-/
import proofs.«109760_j35330400977338_1_alg».proof.Proof.Gen.KernelIdeal.Frame
import proofs.«109760_j35330400977338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

/-! ## The two products' operand indices

The first product is rows × columns, [4096, 256] · [256, 256], contracting the left operand's axis 1 with the right
operand's axis 0. The second contracts BOTH operands along axis 0, [4096, 256]ᵀ · [4096, 256]: its result at (d, e)
pairs the left operand's column d with the right operand's column e. -/

theorem lhsA_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsA_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsA_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsA_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem lhsB_0 (i : S256x256.Idx) (q : dot_S4096x256_S4096x256_S256x256_0_0_1_1_n_n.contr.Idx) :
    (dot_S4096x256_S4096x256_S256x256_0_0_1_1_n_n.lhsIdx i q 0).val = (q ⟨0, by decide⟩).val :=
  dot_S4096x256_S4096x256_S256x256_0_0_1_1_n_n.lhsIdx_val_of_single rfl i q
theorem lhsB_1 (i : S256x256.Idx) (q : dot_S4096x256_S4096x256_S256x256_0_0_1_1_n_n.contr.Idx) :
    (dot_S4096x256_S4096x256_S256x256_0_0_1_1_n_n.lhsIdx i q 1).val = (i 0).val := by
  unfold DotDims.lhsIdx
  rw [dif_neg (show ¬(1 : Fin S4096x256.rank) ∈ dot_S4096x256_S4096x256_S256x256_0_0_1_1_n_n.lhsBatch by decide), dif_pos (show (1 : Fin S4096x256.rank) ∈ dot_S4096x256_S4096x256_S256x256_0_0_1_1_n_n.lhsNonContracting by decide)]
  rfl
theorem rhsB_0 (i : S256x256.Idx) (q : dot_S4096x256_S4096x256_S256x256_0_0_1_1_n_n.contr.Idx) :
    (dot_S4096x256_S4096x256_S256x256_0_0_1_1_n_n.rhsIdx i q 0).val = (q ⟨0, by decide⟩).val :=
  dot_S4096x256_S4096x256_S256x256_0_0_1_1_n_n.rhsIdx_val_of_single rfl i q
theorem rhsB_1 (i : S256x256.Idx) (q : dot_S4096x256_S4096x256_S256x256_0_0_1_1_n_n.contr.Idx) :
    (dot_S4096x256_S4096x256_S256x256_0_0_1_1_n_n.rhsIdx i q 1).val = (i 1).val := by
  unfold DotDims.rhsIdx
  rw [dif_neg (show ¬(1 : Fin S4096x256.rank) ∈ dot_S4096x256_S4096x256_S256x256_0_0_1_1_n_n.rhsBatch by decide), dif_pos (show (1 : Fin S4096x256.rank) ∈ dot_S4096x256_S4096x256_S256x256_0_0_1_1_n_n.rhsNonContracting by decide)]
  rfl

/-- The first product into the zero splat, at (n, e): the sum over k of left (n, k) times right (k, e). -/
theorem matmulA_apply (a : FVec Ideal S4096x256 .bf16) (b : FVec Ideal S256x256 .bf16) (n : Fin 4096) (e : Fin 256) :
    matmul (F := Ideal) dot_S4096x256_S256x256_S4096x256_1_0_0_1_n_n none a b (constant (F := Ideal) S4096x256 .f32 0x00000000#32) (ix2 n e)
      = ∑ k : Fin 256, a (ix2 n k) * b (ix2 k e) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 n e) ((contrEquiv1 dot_S4096x256_S256x256_S4096x256_1_0_0_1_n_n 256 rfl rfl).symm k) = ix2 n k := funext fun c => Fin.ext (by
    match c with
    | ⟨0, _⟩ => exact lhsA_0 _ _
    | ⟨1, _⟩ => exact (lhsA_1 _ _).trans hk)
  have er : dot_S4096x256_S256x256_S4096x256_1_0_0_1_n_n.rhsIdx (ix2 n e) ((contrEquiv1 dot_S4096x256_S256x256_S4096x256_1_0_0_1_n_n 256 rfl rfl).symm k) = ix2 k e := funext fun c => Fin.ext (by
    match c with
    | ⟨0, _⟩ => exact (rhsA_0 _ _).trans hk
    | ⟨1, _⟩ => exact rhsA_1 _ _)
  rw [el, er]

/-- The second product into the zero splat, at (d, e): the sum over the positions n of left (n, d) times right (n, e). -/
theorem matmulB_apply (a : FVec Ideal S4096x256 .bf16) (b : FVec Ideal S4096x256 .bf16) (d e : Fin 256) :
    matmul (F := Ideal) dot_S4096x256_S4096x256_S256x256_0_0_1_1_n_n none a b (constant (F := Ideal) S256x256 .f32 0x00000000#32) (ix2 d e)
      = ∑ n : Fin 4096, a (ix2 n d) * b (ix2 n e) := by
  simp only [matmul]
  rw [Ideal.matmul_constant_zero_apply, ← Equiv.sum_comp (contrEquiv1 dot_S4096x256_S4096x256_S256x256_0_0_1_1_n_n 4096 rfl rfl).symm]
  refine Finset.sum_congr rfl fun k _ => ?_
  have hk := contrEquiv1_symm_val dot_S4096x256_S4096x256_S256x256_0_0_1_1_n_n 4096 rfl rfl k
  have el : dot_S4096x256_S4096x256_S256x256_0_0_1_1_n_n.lhsIdx (ix2 d e) ((contrEquiv1 dot_S4096x256_S4096x256_S256x256_0_0_1_1_n_n 4096 rfl rfl).symm k) = ix2 k d := funext fun c => Fin.ext (by
    match c with
    | ⟨0, _⟩ => exact (lhsB_0 _ _).trans hk
    | ⟨1, _⟩ => exact lhsB_1 _ _)
  have er : dot_S4096x256_S4096x256_S256x256_0_0_1_1_n_n.rhsIdx (ix2 d e) ((contrEquiv1 dot_S4096x256_S4096x256_S256x256_0_0_1_1_n_n 4096 rfl rfl).symm k) = ix2 k e := funext fun c => Fin.ext (by
    match c with
    | ⟨0, _⟩ => exact (rhsB_0 _ _).trans hk
    | ⟨1, _⟩ => exact rhsB_1 _ _)
  rw [el, er]

/-! ## The two reductions along the positions -/

/-- The word the column maximum starts from denotes −∞. -/
theorem negInf_eq : FloatOps.ofBits (F := Ideal) .f32 0xFF800000#32 = (⊥ : EReal) := by
  simp [Ideal.ofBits, Ideal.ieee]

/-- Column e of a [4096, 256] array with position n put back on the reduced axis is the index (n, e). -/
theorem lift_eq (e : Fin 256) (n : Fin 4096) : reduces_S4096x256_S256.lift (ix1 e) n = ix2 n e := by
  funext a; apply Fin.ext
  match a with
  | ⟨0, _⟩ => rfl
  | ⟨1, _⟩ => rfl

/-- The maximum over the positions, from −∞, read at column e. -/
theorem colMax_apply (y : FVec Ideal S4096x256 .f32) (e : Fin 256) :
    multiReduction (F := Ideal) .maximumf [0] S256 y 0xFF800000#32 reduces_S4096x256_S256 (.inl rfl) rfl (ix1 e)
      = (Finset.univ : Finset (Fin 4096)).fold max ⊥ (fun n => y (ix2 n e)) := by
  refine (Ideal.multiReduction_maximumf_single y 0xFF800000#32 reduces_S4096x256_S256 (.inl rfl) rfl (ix1 e)).trans ?_
  rw [negInf_eq]
  exact congrArg (fun f => Finset.fold max (⊥ : EReal) f (Finset.univ : Finset (Fin 4096))) (funext fun n => congrArg y (lift_eq e n))

/-- The sum over the positions read at column e. -/
theorem colSum_apply (y : FVec Ideal S4096x256 .f32) (e : Fin 256) :
    multiReduction (F := Ideal) .add [0] S256 y 0x00000000#32 reduces_S4096x256_S256 (.inl rfl) rfl (ix1 e)
      = ∑ n : Fin 4096, y (ix2 n e) := by
  refine (Ideal.multiReduction_add_single y 0x00000000#32 reduces_S4096x256_S256 (.inl rfl) rfl (ix1 e)).trans ?_
  exact Finset.sum_congr rfl fun n _ => congrArg y (lift_eq e n)

/-- The logistic function and the exponential act element by element. -/
theorem logistic_apply {s : Shape} {φ : FTy} (a : FVec Ideal s φ) (i : s.Idx) : logistic a i = Ideal.logistic (a i) := rfl
theorem exp_apply {s : Shape} {φ : FTy} (a : FVec Ideal s φ) (i : s.Idx) : exp a i = Ideal.exp (a i) := rfl

/-! ## One block's arithmetic

From one batch's keys `x0` and values `x1` (each [1, 4096, 256]), the weights `x2`, the bias row `x3` and the
batch's column sums `x4` ([1, 1, 256]): first as functions of a position and a feature, then as the arrays the
body computes, and each array read at an index is the function. -/

section Block
variable (x0 x1 : Vec Ideal S1x4096x256 .f32) (x2 : Vec Ideal S256x256 .f32) (x3 : Vec Ideal S1x256 .f32) (x4 : Vec Ideal S1x1x256 .f32)

/-- The features: the logistic function of the affine image of a row of keys. -/
def bfeat (n : Fin 4096) (e : Fin 256) : EReal :=
  Ideal.logistic ((∑ k : Fin 256, x0 (ix3 (0 : Fin 1) n k) * x2 (ix2 k e)) + x3 (ix2 (0 : Fin 1) e))

/-- The scores: the feature over its normalizer, times the value. -/
def bscore (n : Fin 4096) (e : Fin 256) : EReal :=
  Ideal.div (bfeat x0 x2 x3 n e) (x4 (ix3 (0 : Fin 1) (0 : Fin 1) e) + Cert.Spec.eps) * x1 (ix3 (0 : Fin 1) n e)

/-- The largest score of a column. -/
def bmax (e : Fin 256) : EReal :=
  (Finset.univ : Finset (Fin 4096)).fold max ⊥ (fun n => bscore x0 x1 x2 x3 x4 n e)

/-- The exponential of a score shifted by its column's maximum. -/
def bexp (n : Fin 4096) (e : Fin 256) : EReal :=
  Ideal.exp (bscore x0 x1 x2 x3 x4 n e - bmax x0 x1 x2 x3 x4 e)

/-- The softmax weights along the positions. -/
def bw (n : Fin 4096) (e : Fin 256) : EReal :=
  Ideal.div (bexp x0 x1 x2 x3 x4 n e) (∑ n' : Fin 4096, bexp x0 x1 x2 x3 x4 n' e)

/-- The array of features. -/
def vfeat : FVec Ideal S4096x256 .f32 :=
  logistic (addf
    (matmul dot_S4096x256_S256x256_S4096x256_1_0_0_1_n_n none
      (truncf .bf16 (shapeCast S4096x256 x0 shapeCasts_S1x4096x256_S4096x256) bitsLt_bf16_f32)
      (truncf .bf16 x2 bitsLt_bf16_f32) (constant S4096x256 .f32 0x00000000#32))
    (broadcastTo S4096x256 (shapeCast S1x256 x3 shapeCasts_S1x256_S1x256) broadcasts_S1x256_S4096x256))

/-- The array of scores. -/
def vscore : FVec Ideal S4096x256 .f32 :=
  mulf
    (divf (vfeat x0 x2 x3)
      (broadcastTo S4096x256
        (addf (shapeCast S1x256 x4 shapeCasts_S1x1x256_S1x256) (broadcast S1x256 (Scalar.ofBits (F := Ideal) .f32 0x358637BD#32)))
        broadcasts_S1x256_S4096x256))
    (shapeCast S4096x256 x1 shapeCasts_S1x4096x256_S4096x256)

/-- The array of shifted exponentials. -/
def vexp : FVec Ideal S4096x256 .f32 :=
  exp (subf (vscore x0 x1 x2 x3 x4)
    (broadcastTo S4096x256
      (shapeCast S1x256
        (multiReduction .maximumf [0] S256 (vscore x0 x1 x2 x3 x4) 0xFF800000#32 reduces_S4096x256_S256 (.inl rfl) rfl)
        shapeCasts_S256_S1x256)
      broadcasts_S1x256_S4096x256))

/-- The array of softmax weights. -/
def vw : FVec Ideal S4096x256 .f32 :=
  divf (vexp x0 x1 x2 x3 x4)
    (broadcastTo S4096x256
      (shapeCast S1x256
        (multiReduction .add [0] S256 (vexp x0 x1 x2 x3 x4) 0x00000000#32 reduces_S4096x256_S256 (.inl rfl) rfl)
        shapeCasts_S256_S1x256)
      broadcasts_S1x256_S4096x256)

/-- The body's result is the second product of the features with the weights, as a [1, 256, 256] block. -/
theorem pay_eq : k1_pay1 x0 x1 x2 x3 x4
    = shapeCast S1x256x256
        (matmul dot_S4096x256_S4096x256_S256x256_0_0_1_1_n_n none
          (truncf .bf16 (vfeat x0 x2 x3) bitsLt_bf16_f32) (truncf .bf16 (vw x0 x1 x2 x3 x4) bitsLt_bf16_f32)
          (constant S256x256 .f32 0x00000000#32))
        shapeCasts_S256x256_S1x256x256 := rfl

theorem vfeat_apply (n : Fin 4096) (e : Fin 256) : vfeat x0 x2 x3 (ix2 n e) = bfeat x0 x2 x3 n e := by
  unfold vfeat bfeat
  rw [logistic_apply, addf_apply, matmulA_apply, broadcastTo_1b_ab_apply, shapeCast_self]
  simp only [truncf_apply, shapeCast_1ab_ab_apply]

theorem vscore_apply (n : Fin 4096) (e : Fin 256) : vscore x0 x1 x2 x3 x4 (ix2 n e) = bscore x0 x1 x2 x3 x4 n e := by
  unfold vscore bscore
  rw [mulf_apply, divf_apply, vfeat_apply, broadcastTo_1b_ab_apply, addf_apply, broadcast_apply,
    shapeCast_1ab_ab_apply, shapeCast_1ab_ab_apply]
  rfl

theorem vexp_apply (n : Fin 4096) (e : Fin 256) : vexp x0 x1 x2 x3 x4 (ix2 n e) = bexp x0 x1 x2 x3 x4 n e := by
  unfold vexp bexp bmax
  rw [exp_apply, subf_apply, vscore_apply, broadcastTo_1b_ab_apply, shapeCast_a_1a_apply, colMax_apply]
  simp only [vscore_apply]

theorem vw_apply (n : Fin 4096) (e : Fin 256) : vw x0 x1 x2 x3 x4 (ix2 n e) = bw x0 x1 x2 x3 x4 n e := by
  unfold vw bw
  rw [divf_apply, vexp_apply, broadcastTo_1b_ab_apply, shapeCast_a_1a_apply, colSum_apply]
  simp only [vexp_apply]

/-- The body's result at (·, d, e): the features' column d against the weights' column e, summed over the positions. -/
theorem pay_apply (u : Fin 1) (d e : Fin 256) :
    k1_pay1 x0 x1 x2 x3 x4 (ix3 u d e) = ∑ n : Fin 4096, bfeat x0 x2 x3 n d * bw x0 x1 x2 x3 x4 n e := by
  rw [pay_eq, shapeCast_ab_1ab_apply, matmulB_apply]
  simp only [truncf_apply, vfeat_apply, vw_apply]

end Block

/-! ## One block's arithmetic is one batch of the specification -/

/-- When the five blocks are batch β of the keys, batch β of the values, the weights, the bias row and batch β of the
    column sums, the block's state matrix at (d, e) is the specification's state matrix at (β, d, e): every definition
    of the specification reads one batch only. -/
theorem spec_eq (x0 x1 : Vec Ideal S1x4096x256 .f32) (x2 : Vec Ideal S256x256 .f32) (x3 : Vec Ideal S1x256 .f32)
    (x4 : Vec Ideal S1x1x256 .f32) (K Vv : S16x4096x256.Idx → EReal) (W : S256x256.Idx → EReal) (b : S1x256.Idx → EReal)
    (s : S16x1x256.Idx → EReal) (β : Fin 16)
    (h0 : ∀ (n : Fin 4096) (k : Fin 256), x0 (ix3 (0 : Fin 1) n k) = K (ix3 β n k))
    (h1 : ∀ (n : Fin 4096) (e : Fin 256), x1 (ix3 (0 : Fin 1) n e) = Vv (ix3 β n e))
    (h2 : ∀ (k e : Fin 256), x2 (ix2 k e) = W (ix2 k e))
    (h3 : ∀ (e : Fin 256), x3 (ix2 (0 : Fin 1) e) = b (ix2 (0 : Fin 1) e))
    (h4 : ∀ (e : Fin 256), x4 (ix3 (0 : Fin 1) (0 : Fin 1) e) = s (ix3 β (0 : Fin 1) e))
    (d e : Fin 256) (β' : Fin 16) (d' e' : Fin 256) (hβ : β'.val = β.val) (hd : d'.val = d.val) (he : e'.val = e.val) :
    ∑ n : Fin 4096, bfeat x0 x2 x3 n d * bw x0 x1 x2 x3 x4 n e
      = Cert.Spec.kv (Cert.Spec.feat K W (fun e => b (ix2 (0 : Fin 1) e)))
          (Cert.Spec.compet (Cert.Spec.scored (Cert.Spec.feat K W (fun e => b (ix2 (0 : Fin 1) e)))
            (fun β e => s (ix3 β (0 : Fin 1) e)) Vv)) β' d' e' := by
  obtain rfl : β' = β := Fin.ext hβ
  obtain rfl : d' = d := Fin.ext hd
  obtain rfl : e' = e := Fin.ext he
  unfold Cert.Spec.kv Cert.Spec.compet Cert.Spec.colMax Cert.Spec.scored Cert.Spec.feat bw bexp bmax bscore bfeat
  simp only [h0, h1, h2, h3, h4]

/-- The body's result at any index of its block. -/
theorem pay_at (x0 x1 : Vec Ideal S1x4096x256 .f32) (x2 : Vec Ideal S256x256 .f32) (x3 : Vec Ideal S1x256 .f32)
    (x4 : Vec Ideal S1x1x256 .f32) (z : S1x256x256.Idx) :
    k1_pay1 x0 x1 x2 x3 x4 z
      = ∑ n : Fin 4096, bfeat x0 x2 x3 n ⟨(z 1).val, (z 1).isLt⟩ * bw x0 x1 x2 x3 x4 n ⟨(z 2).val, (z 2).isLt⟩ := by
  obtain ⟨u, d, e, rfl⟩ : ∃ (u : Fin 1) (d e : Fin 256), z = ix3 u d e := ⟨z 0, z 1, z 2, eq_ix3 z⟩
  exact pay_apply x0 x1 x2 x3 x4 u d e

/-! ## From the blocks to the array -/

-- the TensorCore's buffer contents when the region is entered: any
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps, decided over the grid: point t takes block t along the batch axis of the keys, the values, the
    column sums and the result, and the one block of the weights and of the bias row. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

/-- Block t of the keys is batch t of the keys. -/
theorem blk0_apply (c : Dev nD) (t : Fin cfg1.N) (u : Fin 1) (n : Fin 4096) (k : Fin 256) :
    (iblk1 V c 0 t : Vec Ideal S1x4096x256 .f32) (ix3 u n k)
      = (V c main_arg1 : S16x4096x256.Idx → EReal) (ix3 (t.cast N_1) n k) := by
  obtain ⟨e0, e1, e2, -⟩ := idx_facts t
  unfold iblk1
  rw [View.read_apply]
  show V c main_arg1 _ = V c main_arg1 _
  congr 1
  funext a; apply Fin.ext
  match a with
  | ⟨0, _⟩ => show win1_0.index t (0 : Fin 3) * 1 + 1 * u.val = t.val; rw [e0]; omega
  | ⟨1, _⟩ => show win1_0.index t (1 : Fin 3) * 4096 + 1 * n.val = n.val; rw [e1]; omega
  | ⟨2, _⟩ => show win1_0.index t (2 : Fin 3) * 256 + 1 * k.val = k.val; rw [e2]; omega

/-- Block t of the values is batch t of the values. -/
theorem blk1_apply (c : Dev nD) (t : Fin cfg1.N) (u : Fin 1) (n : Fin 4096) (k : Fin 256) :
    (iblk1 V c 1 t : Vec Ideal S1x4096x256 .f32) (ix3 u n k)
      = (V c main_arg2 : S16x4096x256.Idx → EReal) (ix3 (t.cast N_1) n k) := by
  obtain ⟨-, -, -, e0, e1, e2, -⟩ := idx_facts t
  unfold iblk1
  rw [View.read_apply]
  show V c main_arg2 _ = V c main_arg2 _
  congr 1
  funext a; apply Fin.ext
  match a with
  | ⟨0, _⟩ => show win1_1.index t (0 : Fin 3) * 1 + 1 * u.val = t.val; rw [e0]; omega
  | ⟨1, _⟩ => show win1_1.index t (1 : Fin 3) * 4096 + 1 * n.val = n.val; rw [e1]; omega
  | ⟨2, _⟩ => show win1_1.index t (2 : Fin 3) * 256 + 1 * k.val = k.val; rw [e2]; omega

/-- The one block of the weights is the weights. -/
theorem blk2_apply (c : Dev nD) (t : Fin cfg1.N) (k e : Fin 256) :
    (iblk1 V c 2 t : Vec Ideal S256x256 .f32) (ix2 k e) = (V c main_arg5 : S256x256.Idx → EReal) (ix2 k e) := by
  obtain ⟨-, -, -, -, -, -, e0, e1, -⟩ := idx_facts t
  unfold iblk1
  rw [View.read_apply]
  show V c main_arg5 _ = V c main_arg5 _
  congr 1
  funext a; apply Fin.ext
  match a with
  | ⟨0, _⟩ => show win1_2.index t (0 : Fin 2) * 256 + 1 * k.val = k.val; rw [e0]; omega
  | ⟨1, _⟩ => show win1_2.index t (1 : Fin 2) * 256 + 1 * e.val = e.val; rw [e1]; omega

/-- The one block of the bias row is the bias row. -/
theorem blk3_apply (c : Dev nD) (t : Fin cfg1.N) (u : Fin 1) (e : Fin 256) :
    (iblk1 V c 3 t : Vec Ideal S1x256 .f32) (ix2 u e) = (V c main_v1 : S1x256.Idx → EReal) (ix2 u e) := by
  obtain ⟨-, -, -, -, -, -, -, -, e0, e1, -⟩ := idx_facts t
  unfold iblk1
  rw [View.read_apply]
  show V c main_v1 _ = V c main_v1 _
  congr 1
  funext a; apply Fin.ext
  match a with
  | ⟨0, _⟩ => show win1_3.index t (0 : Fin 2) * 1 + 1 * u.val = u.val; rw [e0]; omega
  | ⟨1, _⟩ => show win1_3.index t (1 : Fin 2) * 256 + 1 * e.val = e.val; rw [e1]; omega

/-- Block t of the column sums is batch t of the column sums. -/
theorem blk4_apply (c : Dev nD) (t : Fin cfg1.N) (u v : Fin 1) (e : Fin 256) :
    (iblk1 V c 4 t : Vec Ideal S1x1x256 .f32) (ix3 u v e)
      = (V c main_v2 : S16x1x256.Idx → EReal) (ix3 (t.cast N_1) v e) := by
  obtain ⟨-, -, -, -, -, -, -, -, -, -, e0, e1, e2, -⟩ := idx_facts t
  unfold iblk1
  rw [View.read_apply]
  show V c main_v2 _ = V c main_v2 _
  congr 1
  funext a; apply Fin.ext
  match a with
  | ⟨0, _⟩ => show win1_4.index t (0 : Fin 3) * 1 + 1 * u.val = t.val; rw [e0]; omega
  | ⟨1, _⟩ => show win1_4.index t (1 : Fin 3) * 1 + 1 * v.val = v.val; rw [e1]; omega
  | ⟨2, _⟩ => show win1_4.index t (2 : Fin 3) * 256 + 1 * e.val = e.val; rw [e2]; omega

/-- The state matrix of the region's own inputs, as an array over [16, 256, 256]. -/
abbrev stateOf (c : Dev nD) : S16x256x256.Idx → EReal :=
  fun j => Cert.Spec.kv
    (Cert.Spec.feat (V c main_arg1) (V c main_arg5) (fun e => (V c main_v1 : S1x256.Idx → EReal) (ix2 (0 : Fin 1) e)))
    (Cert.Spec.compet (Cert.Spec.scored
      (Cert.Spec.feat (V c main_arg1) (V c main_arg5) (fun e => (V c main_v1 : S1x256.Idx → EReal) (ix2 (0 : Fin 1) e)))
      (fun β e => (V c main_v2 : S16x1x256.Idx → EReal) (ix3 β (0 : Fin 1) e))
      (V c main_arg2)))
    ⟨(j 0).val, (j 0).isLt⟩ ⟨(j 1).val, (j 1).isLt⟩ ⟨(j 2).val, (j 2).isLt⟩

/-- What point t writes back is block t of the state matrix. -/
theorem flushed_eq (c : Dev nD) (t : Fin cfg1.N) :
    (dat1 V c).flushed 5 t = ((cfg1.win 5).blk t).view.read (Elt Ideal) (stateOf V c) := by
  show (cfg1.win 5).cut (grid1.coords t) ((dat1 V c).after 5 t) = _
  rw [after1_5]
  unfold out1_5
  rw [View.canon_unit_zero hz3]
  simp only [View.ld_unit_zero (S := S1x4096x256) hz3, View.ld_unit_zero (S := S256x256) hz2,
    View.ld_unit_zero (S := S1x256) hz2, View.ld_unit_zero (S := S1x1x256) hz3]
  obtain ⟨-, -, -, -, -, -, -, -, -, -, -, -, -, e0, e1, e2⟩ := idx_facts t
  funext y
  have hy0 : (y 0).val < 1 := (y 0).isLt
  refine (pay_at (iblk1 V c 0 t) (iblk1 V c 1 t) (iblk1 V c 2 t) (iblk1 V c 3 t) (iblk1 V c 4 t)
    (win1_5.xinj (grid1.coords t) y)).trans ?_
  rw [View.read_apply]
  show _ = stateOf V c (((cfg1.win 5).blk t).view.emb y)
  refine spec_eq (iblk1 V c 0 t) (iblk1 V c 1 t) (iblk1 V c 2 t) (iblk1 V c 3 t) (iblk1 V c 4 t)
    (V c main_arg1) (V c main_arg2) (V c main_arg5) (V c main_v1) (V c main_v2) (t.cast N_1)
    (fun n k => blk0_apply V c t 0 n k) (fun n e => blk1_apply V c t 0 n e) (fun k e => blk2_apply V c t k e)
    (fun e => blk3_apply V c t 0 e) (fun e => blk4_apply V c t 0 0 e) _ _ _ _ _ ?_ ?_ ?_
  · show win1_5.index t (0 : Fin 3) * 1 + 1 * (y 0).val = t.val; rw [e0]; omega
  · show win1_5.index t (1 : Fin 3) * 256 + 1 * (y 1).val = (y 1).val; rw [e1]; omega
  · show win1_5.index t (2 : Fin 3) * 256 + 1 * (y 2).val = (y 2).val; rw [e2]; omega

/-- An index of the result array is in point t's block iff each coordinate is in the block's range on its axis. -/
theorem mem_blk (t : Fin cfg1.N) (i : S16x256x256.Idx) :
    i ∈ ((cfg1.win 5).blk t).view.set ↔ ∀ a : Fin 3, win1_5.index t a * S1x256x256.size a ≤ (i a).val ∧ (i a).val < win1_5.index t a * S1x256x256.size a + S1x256x256.size a := by
  show i ∈ ((View.whole main_v3).slice (win1_5.rect t)).set ↔ _
  rw [View.set_slice_whole, Rect.mem_set_unit]
  exact Iff.rfl

/-- Batch β of the result array is point β's block. -/
theorem cover (i : S16x256x256.Idx) :
    ∃ t : Fin cfg1.N, (cfg1.win 5).flush t = true ∧ i ∈ ((cfg1.win 5).blk t).view.set := by
  have hi0 : (i 0).val < 16 := (i 0).isLt
  have hi1 : (i 1).val < 256 := (i 1).isLt
  have hi2 : (i 2).val < 256 := (i 2).isLt
  have hN : cfg1.N = 16 := N_1
  have hlt : (i 0).val < cfg1.N := by rw [hN]; exact hi0
  refine ⟨⟨(i 0).val, hlt⟩, flush1_5 _, ?_⟩
  obtain ⟨-, -, -, -, -, -, -, -, -, -, -, -, -, e0, e1, e2⟩ := idx_facts ⟨(i 0).val, hlt⟩
  replace e0 : win1_5.index ⟨(i 0).val, hlt⟩ (0 : Fin 3) = (i 0).val := e0
  rw [mem_blk]
  intro a
  match a with
  | ⟨0, _⟩ => show win1_5.index _ (0 : Fin 3) * 1 ≤ (i 0).val ∧ (i 0).val < win1_5.index _ (0 : Fin 3) * 1 + 1; rw [e0]; omega
  | ⟨1, _⟩ => show win1_5.index _ (1 : Fin 3) * 256 ≤ (i 1).val ∧ (i 1).val < win1_5.index _ (1 : Fin 3) * 256 + 256; rw [e1]; omega
  | ⟨2, _⟩ => show win1_5.index _ (2 : Fin 3) * 256 ≤ (i 2).val ∧ (i 2).val < win1_5.index _ (2 : Fin 3) * 256 + 256; rw [e2]; omega

/-- After region 1 its result array holds, at (β, d, e), the state matrix of the region's own inputs as it finds
    them: the keys in `main_arg1`, the values in `main_arg2`, the weights in `main_arg5`, the bias row in `main_v1`,
    the column sums in `main_v2`. -/
theorem final (c : Dev nD) :
    ((dat1 (F := Ideal) V c).arrAt 5 cfg1.N : S16x256x256.Idx → EReal)
      = fun j => Cert.Spec.kv
          (Cert.Spec.feat (V c main_arg1) (V c main_arg5) (fun e => (V c main_v1 : S1x256.Idx → EReal) (ix2 (0 : Fin 1) e)))
          (Cert.Spec.compet (Cert.Spec.scored
            (Cert.Spec.feat (V c main_arg1) (V c main_arg5) (fun e => (V c main_v1 : S1x256.Idx → EReal) (ix2 (0 : Fin 1) e)))
            (fun β e => (V c main_v2 : S16x1x256.Idx → EReal) (ix3 β (0 : Fin 1) e))
            (V c main_arg2)))
          ⟨(j 0).val, (j 0).isLt⟩ ⟨(j 1).val, (j 1).isLt⟩ ⟨(j 2).val, (j 2).isLt⟩ :=
  (dat1 V c).arrAt_eq_of_cover 5 (stateOf V c) (fun t _ => flushed_eq V c t) cover

end Cert.KernelIdeal.Reg1

end
-- ==== Proof.Reg2.lean ====
/-
  Region 2 (the gated aggregate). Grid point t is batch t: from block t of the queries, the weights, the bias row
  and block t of the state matrices it writes block t of the [16, 4096, 256] result: σ(row sum) times the
  row-normalized features against the state matrix.
-/
import proofs.«109760_j35330400977338_1_alg».proof.Proof.Gen.KernelIdeal.Frame
import proofs.«109760_j35330400977338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

/-! ## The keepdims column forms read at an index -/

/-- A vector `[a]` cast to a column `[a, 1]` reads, at `(i, u)`, the vector at `i`: both row-major positions are `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The product of a [4096, 256] block with a [256, 256] matrix, read at an index -/

-- The product's operand indices at output index `i` and shared coordinate `q`, axis by axis: the left operand is read
-- at `(i 0, q)`, the right one at `(q, i 1)`.
theorem lhs_dot_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_dot_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_dot_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_dot_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into the zero splat, at `(n, e)`: the sum over the shared axis of row `n` of the left operand against
    column `e` of the right one. -/
theorem matmul_read {φ₁ φ₂ : FTy} (A : FVec Ideal S4096x256 φ₁) (B : FVec Ideal S256x256 φ₂) (n : Fin 4096) (e : Fin 256) :
    matmul (F := Ideal) dot_S4096x256_S256x256_S4096x256_1_0_0_1_n_n none A B (constant (F := Ideal) S4096x256 .f32 0x00000000#32) (ix2 n e)
      = ∑ k : Fin 256, A (ix2 n k) * B (ix2 k e) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 n e) ((contrEquiv1 dot_S4096x256_S256x256_S4096x256_1_0_0_1_n_n 256 rfl rfl).symm k) = ix2 n k := funext fun a => Fin.ext (by
    match a with
    | ⟨0, _⟩ => exact lhs_dot_0 _ _
    | ⟨1, _⟩ => exact (lhs_dot_1 _ _).trans hk)
  have er : dot_S4096x256_S256x256_S4096x256_1_0_0_1_n_n.rhsIdx (ix2 n e) ((contrEquiv1 dot_S4096x256_S256x256_S4096x256_1_0_0_1_n_n 256 rfl rfl).symm k) = ix2 k e := funext fun a => Fin.ext (by
    match a with
    | ⟨0, _⟩ => exact (rhs_dot_0 _ _).trans hk
    | ⟨1, _⟩ => exact rhs_dot_1 _ _)
  rw [el, er]

/-! ## The sum along the features of a [4096, 256] block, read at a row -/

/-- The lane sum at row `n`: the sum of the row's 256 entries. -/
theorem rowsum_read (src : FVec Ideal S4096x256 .f32) (hφ : FTy.f32 = FTy.f32 ∨ FTy.f32 = FTy.bf16)
    (hacc : (0x00000000#32 : BitVec 32) = 0x00000000#32) (n : Fin 4096) :
    multiReduction (F := Ideal) .add [1] S4096 src 0x00000000#32 reduces_S4096x256_S4096 hφ hacc (ix1 n)
      = ∑ d : Fin 256, src (ix2 n d) := by
  refine (Ideal.multiReduction_add_single src 0x00000000#32 reduces_S4096x256_S4096 hφ hacc (ix1 n)).trans ?_
  refine Finset.sum_congr rfl fun d _ => congrArg src ?_
  funext a; apply Fin.ext
  match a with
  | ⟨0, _⟩ => rfl
  | ⟨1, _⟩ => rfl

/-! ## The body's arithmetic at an index -/

/-- The logistic function is taken entry by entry. -/
theorem logistic_apply {s : Shape} {φ : FTy} (x : FVec Ideal s φ) (i : s.Idx) : logistic x i = Ideal.logistic (x i) := rfl

/-- The features of one block of queries: the logistic function of the affine image of row `n`, at feature `d`. -/
def blkFeat (x0 : Vec Ideal S1x4096x256 .f32) (x1 : Vec Ideal S256x256 .f32) (x2 : Vec Ideal S1x256 .f32)
    (n : Fin 4096) (d : Fin 256) : EReal :=
  Ideal.logistic ((∑ k : Fin 256, x0 (ix3 (0 : Fin 1) n k) * x1 (ix2 k d)) + x2 (ix2 (0 : Fin 1) d))

/-- The block the body stores, at `(u, n, e)`: the logistic function of row `n`'s feature sum, times the row's
    normalized features against column `e` of the state matrix. -/
theorem pay_read (x0 : Vec Ideal S1x4096x256 .f32) (x1 : Vec Ideal S256x256 .f32) (x2 : Vec Ideal S1x256 .f32)
    (x3 : Vec Ideal S1x256x256 .f32) (u : Fin 1) (n : Fin 4096) (e : Fin 256) :
    k2_pay1 (F := Ideal) x0 x1 x2 x3 (ix3 u n e)
      = Ideal.logistic (∑ d : Fin 256, blkFeat x0 x1 x2 n d)
        * ∑ d : Fin 256, Ideal.div (blkFeat x0 x1 x2 n d) ((∑ d' : Fin 256, blkFeat x0 x1 x2 n d') + Cert.Spec.eps)
            * x3 (ix3 (0 : Fin 1) d e) := by
  unfold k2_pay1
  dsimp only
  rw [shapeCast_ab_1ab_apply, mulf_apply, broadcastTo_a1_ab_apply, matmul_read]
  simp only [truncf_apply, divf_apply, logistic_apply, broadcastTo_a1_ab_apply, addf_apply, shapeCast_a_a1_apply,
    broadcast_apply, rowsum_read, matmul_read, shapeCast_1ab_ab_apply, broadcastTo_1b_ab_apply, shapeCast_self]
  rw [rowsum_read]
  simp only [truncf_apply, logistic_apply, addf_apply, matmul_read, shapeCast_1ab_ab_apply, broadcastTo_1b_ab_apply]
  unfold blkFeat Cert.Spec.eps
  rfl

/-! ## From the blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer is its one store's payload, of the four blocks as loaded whole. -/
theorem out_eq (x0 : Vec Ideal S1x4096x256 .f32) (x1 : Vec Ideal S256x256 .f32) (x2 : Vec Ideal S1x256 .f32)
    (x3 : Vec Ideal S1x256x256 .f32) : out2_4 (F := Ideal) x0 x1 x2 x3 = k2_pay1 x0 x1 x2 x3 := by
  unfold out2_4
  rw [View.canon_unit_zero hz3]
  simp only [View.ld_unit_zero (S := S1x4096x256) hz3, View.ld_unit_zero (S := S256x256) hz2,
    View.ld_unit_zero (S := S1x256) hz2, View.ld_unit_zero (S := S1x256x256) hz3]

/-- The block indices over the grid: point `t` takes block `t` of the queries, of the state matrices and of the result
    along the batch axis, and the one block of the weights and of the bias row. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-- The batch that grid point `t` works on. -/
def batchOf (t : Fin cfg2.N) : Fin 16 := ⟨t.val, by have h : t.val < grid2.N := t.isLt; rw [N_2] at h; exact h⟩

/-- One point's payload against the arrays: when the four blocks are batch `β` of the queries, the weights, the bias
    row and batch `β` of the state matrices, the payload at `(u, n, e)` is the gated aggregate at `(β, n, e)`. -/
theorem point_eq (Q : S16x4096x256.Idx → EReal) (W : S256x256.Idx → EReal) (B : S1x256.Idx → EReal)
    (St : S16x256x256.Idx → EReal)
    (x0 : Vec Ideal S1x4096x256 .f32) (x1 : Vec Ideal S256x256 .f32) (x2 : Vec Ideal S1x256 .f32)
    (x3 : Vec Ideal S1x256x256 .f32) (β : Fin 16)
    (h0 : ∀ (u : Fin 1) (n : Fin 4096) (k : Fin 256), x0 (ix3 u n k) = Q (ix3 β n k))
    (h1 : ∀ (k d : Fin 256), x1 (ix2 k d) = W (ix2 k d))
    (h2 : ∀ (u : Fin 1) (d : Fin 256), x2 (ix2 u d) = B (ix2 (0 : Fin 1) d))
    (h3 : ∀ (u : Fin 1) (d e : Fin 256), x3 (ix3 u d e) = St (ix3 β d e))
    (u : Fin 1) (n : Fin 4096) (e : Fin 256) :
    k2_pay1 (F := Ideal) x0 x1 x2 x3 (ix3 u n e)
      = Cert.Spec.result (Cert.Spec.feat Q W (fun e => B (ix2 (0 : Fin 1) e))) (fun β d e => St (ix3 β d e)) β n e := by
  rw [pay_read]
  have hf : ∀ d : Fin 256, blkFeat x0 x1 x2 n d = Cert.Spec.feat Q W (fun e => B (ix2 (0 : Fin 1) e)) β n d := fun d => by
    unfold blkFeat Cert.Spec.feat
    simp only [h0, h1, h2]
  simp only [hf, h3]
  rfl

-- the TensorCore's buffer contents when the region is entered: any
variable (V : (c : Dev nD) → (b : Ref sig .tc) → Buf (Elt Ideal) ((c : Thread nD τ).loc b))

/-- The queries' block at point `t` is batch `t` of the queries. -/
theorem blk0_read (c : Dev nD) (t : Fin cfg2.N) (u : Fin 1) (n : Fin 4096) (k : Fin 256) :
    (iblk2 V c 0 t : Vec Ideal S1x4096x256 .f32) (ix3 u n k)
      = (V c main_arg0 : S16x4096x256.Idx → EReal) (ix3 (batchOf t) n k) := by
  obtain ⟨e0, e1, e2, -⟩ := idx_facts t
  unfold iblk2
  rw [View.read_apply]
  show V c main_arg0 _ = V c main_arg0 _
  congr 1
  funext a
  apply Fin.ext
  match a with
  | ⟨0, _⟩ => show win2_0.index t (0 : Fin 3) * 1 + 1 * u.val = t.val; rw [e0]; omega
  | ⟨1, _⟩ => show win2_0.index t (1 : Fin 3) * 4096 + 1 * n.val = n.val; rw [e1]; omega
  | ⟨2, _⟩ => show win2_0.index t (2 : Fin 3) * 256 + 1 * k.val = k.val; rw [e2]; omega

/-- The weights' block at any point is the weight matrix. -/
theorem blk1_read (c : Dev nD) (t : Fin cfg2.N) (k d : Fin 256) :
    (iblk2 V c 1 t : Vec Ideal S256x256 .f32) (ix2 k d) = (V c main_arg3 : S256x256.Idx → EReal) (ix2 k d) := by
  obtain ⟨-, -, -, e0, e1, -⟩ := idx_facts t
  unfold iblk2
  rw [View.read_apply]
  show V c main_arg3 _ = V c main_arg3 _
  congr 1
  funext a
  apply Fin.ext
  match a with
  | ⟨0, _⟩ => show win2_1.index t (0 : Fin 2) * 256 + 1 * k.val = k.val; rw [e0]; omega
  | ⟨1, _⟩ => show win2_1.index t (1 : Fin 2) * 256 + 1 * d.val = d.val; rw [e1]; omega

/-- The bias block at any point is the bias row. -/
theorem blk2_read (c : Dev nD) (t : Fin cfg2.N) (u : Fin 1) (d : Fin 256) :
    (iblk2 V c 2 t : Vec Ideal S1x256 .f32) (ix2 u d) = (V c main_v0 : S1x256.Idx → EReal) (ix2 (0 : Fin 1) d) := by
  obtain ⟨-, -, -, -, -, e0, e1, -⟩ := idx_facts t
  unfold iblk2
  rw [View.read_apply]
  show V c main_v0 _ = V c main_v0 _
  congr 1
  funext a
  apply Fin.ext
  match a with
  | ⟨0, _⟩ => show win2_2.index t (0 : Fin 2) * 1 + 1 * u.val = 0; rw [e0]; omega
  | ⟨1, _⟩ => show win2_2.index t (1 : Fin 2) * 256 + 1 * d.val = d.val; rw [e1]; omega

/-- The state block at point `t` is batch `t` of the state matrices. -/
theorem blk3_read (c : Dev nD) (t : Fin cfg2.N) (u : Fin 1) (d e : Fin 256) :
    (iblk2 V c 3 t : Vec Ideal S1x256x256 .f32) (ix3 u d e)
      = (V c main_v3 : S16x256x256.Idx → EReal) (ix3 (batchOf t) d e) := by
  obtain ⟨-, -, -, -, -, -, -, e0, e1, e2, -⟩ := idx_facts t
  unfold iblk2
  rw [View.read_apply]
  show V c main_v3 _ = V c main_v3 _
  congr 1
  funext a
  apply Fin.ext
  match a with
  | ⟨0, _⟩ => show win2_3.index t (0 : Fin 3) * 1 + 1 * u.val = t.val; rw [e0]; omega
  | ⟨1, _⟩ => show win2_3.index t (1 : Fin 3) * 256 + 1 * d.val = d.val; rw [e1]; omega
  | ⟨2, _⟩ => show win2_3.index t (2 : Fin 3) * 256 + 1 * e.val = e.val; rw [e2]; omega

/-- What point `t` writes back is block `t` of the gated aggregate of the region's inputs. -/
theorem flushed_eq (c : Dev nD) (t : Fin cfg2.N) :
    (dat2 (F := Ideal) V c).flushed 4 t = ((cfg2.win 4).blk t).view.read (Elt Ideal)
      (fun j : S16x4096x256.Idx => Cert.Spec.result
          (Cert.Spec.feat (V c main_arg0) (V c main_arg3) (fun e => (V c main_v0 : S1x256.Idx → EReal) (ix2 (0 : Fin 1) e)))
          (fun β d e => (V c main_v3 : S16x256x256.Idx → EReal) (ix3 β d e))
          ⟨(j 0).val, (j 0).isLt⟩ ⟨(j 1).val, (j 1).isLt⟩ ⟨(j 2).val, (j 2).isLt⟩) := by
  show (cfg2.win 4).cut (grid2.coords t) ((dat2 V c).after 4 t) = _
  rw [after2_4, out_eq]
  obtain ⟨-, -, -, -, -, -, -, -, -, -, e0, e1, e2⟩ := idx_facts t
  funext y
  obtain ⟨u, n, e, rfl⟩ : ∃ (u : Fin 1) (n : Fin 4096) (e : Fin 256), y = ix3 u n e := ⟨y 0, y 1, y 2, eq_ix3 y⟩
  refine (point_eq (V c main_arg0) (V c main_arg3) (V c main_v0) (V c main_v3)
    (iblk2 V c 0 t) (iblk2 V c 1 t) (iblk2 V c 2 t) (iblk2 V c 3 t) (batchOf t)
    (blk0_read V c t) (blk1_read V c t) (blk2_read V c t) (blk3_read V c t) u n e).trans ?_
  rw [View.read_apply]
  have hemb : ((cfg2.win 4).blk t).view.emb (ix3 u n e) = ix3 (batchOf t) n e := by
    funext a
    apply Fin.ext
    match a with
    | ⟨0, _⟩ => show win2_4.index t (0 : Fin 3) * 1 + 1 * u.val = t.val; rw [e0]; omega
    | ⟨1, _⟩ => show win2_4.index t (1 : Fin 3) * 4096 + 1 * n.val = n.val; rw [e1]; omega
    | ⟨2, _⟩ => show win2_4.index t (2 : Fin 3) * 256 + 1 * e.val = e.val; rw [e2]; omega
  rw [hemb]
  rfl

/-- An index of the result array is in point `t`'s block iff each coordinate is in the block's range on its axis. -/
theorem mem_blk (t : Fin cfg2.N) (i : S16x4096x256.Idx) :
    i ∈ ((cfg2.win 4).blk t).view.set ↔ ∀ a : Fin 3, win2_4.index t a * S1x4096x256.size a ≤ (i a).val
      ∧ (i a).val < win2_4.index t a * S1x4096x256.size a + S1x4096x256.size a := by
  show i ∈ ((View.whole main_v4).slice (win2_4.rect t)).set ↔ _
  rw [View.set_slice_whole, Rect.mem_set_unit]
  exact Iff.rfl

/-- Every index of the result array is written: the index of batch `β` by point `β`. -/
theorem cover (i : S16x4096x256.Idx) :
    ∃ t : Fin cfg2.N, (cfg2.win 4).flush t = true ∧ i ∈ ((cfg2.win 4).blk t).view.set := by
  have hi0 : (i 0).val < 16 := (i 0).isLt
  have hi1 : (i 1).val < 4096 := (i 1).isLt
  have hi2 : (i 2).val < 256 := (i 2).isLt
  have hN : (i 0).val < grid2.N := by rw [N_2]; exact hi0
  obtain ⟨-, -, -, -, -, -, -, -, -, -, e0', e1, e2⟩ := idx_facts ⟨(i 0).val, hN⟩
  have e0 : win2_4.index ⟨(i 0).val, hN⟩ (0 : Fin 3) = (i 0).val := e0'
  refine ⟨⟨(i 0).val, hN⟩, flush2_4 _, ?_⟩
  rw [mem_blk]
  intro a
  match a with
  | ⟨0, _⟩ =>
    show win2_4.index ⟨(i 0).val, hN⟩ (0 : Fin 3) * 1 ≤ (i 0).val ∧ (i 0).val < win2_4.index ⟨(i 0).val, hN⟩ (0 : Fin 3) * 1 + 1
    rw [e0]; omega
  | ⟨1, _⟩ =>
    show win2_4.index ⟨(i 0).val, hN⟩ (1 : Fin 3) * 4096 ≤ (i 1).val ∧ (i 1).val < win2_4.index ⟨(i 0).val, hN⟩ (1 : Fin 3) * 4096 + 4096
    rw [e1]; omega
  | ⟨2, _⟩ =>
    show win2_4.index ⟨(i 0).val, hN⟩ (2 : Fin 3) * 256 ≤ (i 2).val ∧ (i 2).val < win2_4.index ⟨(i 0).val, hN⟩ (2 : Fin 3) * 256 + 256
    rw [e2]; omega

/-- After region 2 its result array holds, at (β, n, e), the gated aggregate of the region's own inputs as it finds
    them: the queries in `main_arg0`, the weights in `main_arg3`, the bias row in `main_v0`, the state matrices in
    `main_v3`. -/
theorem final (c : Dev nD) :
    ((dat2 (F := Ideal) V c).arrAt 4 cfg2.N : S16x4096x256.Idx → EReal)
      = fun j => Cert.Spec.result
          (Cert.Spec.feat (V c main_arg0) (V c main_arg3) (fun e => (V c main_v0 : S1x256.Idx → EReal) (ix2 (0 : Fin 1) e)))
          (fun β d e => (V c main_v3 : S16x256x256.Idx → EReal) (ix3 β d e))
          ⟨(j 0).val, (j 0).isLt⟩ ⟨(j 1).val, (j 1).isLt⟩ ⟨(j 2).val, (j 2).isLt⟩ := by
  exact (dat2 (F := Ideal) V c).arrAt_eq_of_cover 4 _ (fun t _ => flushed_eq V c t) cover

end Cert.KernelIdeal.Reg2

end
-- ==== Proof.KValue.lean ====
/-
  The idealized kernel's result as ONE function of the seven argument arrays.

  The run's last boundary holds, in the result array, what region 2's write-backs leave; region 2 found the queries,
  their weights and bias row as launched (the bias row a reshape of the bias vector) and, in the state array, what region 1
  left; region 1 found the keys, values, weights and bias row as launched and, in the column-sum array, what region 0 left;
  region 0 found the keys, weights and bias row as launched. Composing the three regions' values along these reads gives
  the attention map of the specification.
-/
import proofs.«109760_j35330400977338_1_alg».proof.Proof.Reg0
import proofs.«109760_j35330400977338_1_alg».proof.Proof.Reg1
import proofs.«109760_j35330400977338_1_alg».proof.Proof.Reg2
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The host stretch before region 0: two reshapes, nothing else written -/

/-- A buffer the two reshapes do not write holds its launch contents when region 0 is entered. -/
theorem W1_of_ne (c : Dev nD) (b : Ref sig .tc) (h0 : (Proc.devRef .tc main_v0 : DevRef τ sig) ≠ Proc.devRef .tc b)
    (h1 : (Proc.devRef .tc main_v1 : DevRef τ sig) ≠ Proc.devRef .tc b) :
    W1 m ρ c (Proc.devRef .tc b) = m ((c : Thread nD τ).loc b) :=
  (StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    exact ⟨h0.symm, h1.symm⟩))).trans rfl

/-- The queries' bias row: the bias vector `main_arg4` viewed as [1, 256]. -/
theorem W1_v0 (c : Dev nD) :
    (W1 m ρ c (Proc.devRef .tc main_v0) : S1x256.Idx → EReal)
      = shapeCast S1x256 (m ((c : Thread nD τ).loc main_arg4)) shapeCasts_S256_S1x256 := by
  show StableHlo.after hostOps0 (W0 m ρ c) (Proc.devRef .tc main_v0) = _
  after_results; rfl

/-- The keys' bias row: the bias vector `main_arg6` viewed as [1, 256]. -/
theorem W1_v1 (c : Dev nD) :
    (W1 m ρ c (Proc.devRef .tc main_v1) : S1x256.Idx → EReal)
      = shapeCast S1x256 (m ((c : Thread nD τ).loc main_arg6)) shapeCasts_S256_S1x256 := by
  show StableHlo.after hostOps0 (W0 m ρ c) (Proc.devRef .tc main_v1) = _
  after_results; rfl

/-- A vector of 256 viewed as a [1, 256] row reads, at (0, e), the vector at e. -/
theorem row_apply (v : S256.Idx → EReal) (e : Fin 256) :
    shapeCast S1x256 v shapeCasts_S256_S1x256 (ix2 (0 : Fin 1) e) = v (ix1 e) := by
  refine shapeCast_apply v shapeCasts_S256_S1x256 (ix2 (0 : Fin 1) e) (ix1 e) ?_
  rw [Shape.rowMajor_val_one, Shape.rowMajor_val_two]
  show e.val = 0 * 256 + e.val
  omega

/-! ## What region 0 finds -/

theorem V1_arg1 (c : Dev nD) : V1 m ρ c main_arg1 = m ((c : Thread nD τ).loc main_arg1) :=
  W1_of_ne m ρ c main_arg1 (by decide) (by decide)
theorem V1_arg5 (c : Dev nD) : V1 m ρ c main_arg5 = m ((c : Thread nD τ).loc main_arg5) :=
  W1_of_ne m ρ c main_arg5 (by decide) (by decide)
/-- Its bias row at (0, e) is the keys' bias vector at e. -/
theorem V1_bias (c : Dev nD) :
    (fun e : Fin 256 => (V1 m ρ c main_v1 : S1x256.Idx → EReal) (ix2 (0 : Fin 1) e))
      = fun e => (m ((c : Thread nD τ).loc main_arg6) : S256.Idx → EReal) (ix1 e) :=
  funext fun e => (congrFun (W1_v1 m ρ c) _).trans (row_apply _ e)

/-! ## What region 1 finds: region 0 wrote only the column sums -/

theorem V2_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (V1_arg1 m ρ c)
theorem V2_arg2 (c : Dev nD) : V2 m ρ c main_arg2 = m ((c : Thread nD τ).loc main_arg2) :=
  (W2_of_ne m ρ c main_arg2 (by decide)).trans (W1_of_ne m ρ c main_arg2 (by decide) (by decide))
theorem V2_arg5 (c : Dev nD) : V2 m ρ c main_arg5 = m ((c : Thread nD τ).loc main_arg5) :=
  ((W2_arr m ρ c 1).trans (((dat0 (V1 m ρ) c).arrAt_in 1 rfl _).trans (A_eq0 (V1 m ρ) c 1))).trans (V1_arg5 m ρ c)
theorem V2_v1 (c : Dev nD) : V2 m ρ c main_v1 = V1 m ρ c main_v1 :=
  (W2_arr m ρ c 2).trans (((dat0 (V1 m ρ) c).arrAt_in 2 rfl _).trans (A_eq0 (V1 m ρ) c 2))
theorem V2_bias (c : Dev nD) :
    (fun e : Fin 256 => (V2 m ρ c main_v1 : S1x256.Idx → EReal) (ix2 (0 : Fin 1) e))
      = fun e => (m ((c : Thread nD τ).loc main_arg6) : S256.Idx → EReal) (ix1 e) := by
  rw [V2_v1]; exact V1_bias m ρ c
/-- The column-sum array holds what region 0 left: the column sums of the keys' features. -/
theorem V2_v2 (c : Dev nD) :
    (fun (β : Fin 16) (e : Fin 256) => (V2 m ρ c main_v2 : S16x1x256.Idx → EReal) (ix3 β (0 : Fin 1) e))
      = Cert.Spec.colSum (Cert.Spec.feat (m ((c : Thread nD τ).loc main_arg1)) (m ((c : Thread nD τ).loc main_arg5))
          fun e => (m ((c : Thread nD τ).loc main_arg6) : S256.Idx → EReal) (ix1 e)) := by
  funext β e
  rw [show (V2 m ρ c main_v2 : S16x1x256.Idx → EReal) = (dat0 (F := Ideal) (V1 m ρ) c).arrAt 3 cfg0.N from W2_arr m ρ c 3,
    Cert.KernelIdeal.Reg0.final (V1 m ρ) c, V1_arg1, V1_arg5, V1_bias]
  rfl

/-! ## What region 2 finds: region 1 wrote only the state matrices -/

theorem V3_arg0 (c : Dev nD) : V3 m ρ c main_arg0 = m ((c : Thread nD τ).loc main_arg0) :=
  (W3_of_ne m ρ c main_arg0 (by decide)).trans ((W2_of_ne m ρ c main_arg0 (by decide)).trans
    (W1_of_ne m ρ c main_arg0 (by decide) (by decide)))
theorem V3_arg3 (c : Dev nD) : V3 m ρ c main_arg3 = m ((c : Thread nD τ).loc main_arg3) :=
  (W3_of_ne m ρ c main_arg3 (by decide)).trans ((W2_of_ne m ρ c main_arg3 (by decide)).trans
    (W1_of_ne m ρ c main_arg3 (by decide) (by decide)))
theorem V3_bias (c : Dev nD) :
    (fun e : Fin 256 => (V3 m ρ c main_v0 : S1x256.Idx → EReal) (ix2 (0 : Fin 1) e))
      = fun e => (m ((c : Thread nD τ).loc main_arg4) : S256.Idx → EReal) (ix1 e) := by
  rw [show V3 m ρ c main_v0 = W1 m ρ c (Proc.devRef .tc main_v0) from
    (W3_of_ne m ρ c main_v0 (by decide)).trans (W2_of_ne m ρ c main_v0 (by decide))]
  exact funext fun e => (congrFun (W1_v0 m ρ c) _).trans (row_apply _ e)
/-- The state array holds what region 1 left: the state matrices of the keys and values. -/
theorem V3_v3 (c : Dev nD) :
    (fun (β : Fin 16) (d e : Fin 256) => (V3 m ρ c main_v3 : S16x256x256.Idx → EReal) (ix3 β d e))
      = Cert.Spec.kv
          (Cert.Spec.feat (m ((c : Thread nD τ).loc main_arg1)) (m ((c : Thread nD τ).loc main_arg5))
            fun e => (m ((c : Thread nD τ).loc main_arg6) : S256.Idx → EReal) (ix1 e))
          (Cert.Spec.compet (Cert.Spec.scored
            (Cert.Spec.feat (m ((c : Thread nD τ).loc main_arg1)) (m ((c : Thread nD τ).loc main_arg5))
              fun e => (m ((c : Thread nD τ).loc main_arg6) : S256.Idx → EReal) (ix1 e))
            (Cert.Spec.colSum (Cert.Spec.feat (m ((c : Thread nD τ).loc main_arg1)) (m ((c : Thread nD τ).loc main_arg5))
              fun e => (m ((c : Thread nD τ).loc main_arg6) : S256.Idx → EReal) (ix1 e)))
            (m ((c : Thread nD τ).loc main_arg2)))) := by
  funext β d e
  rw [show (V3 m ρ c main_v3 : S16x256x256.Idx → EReal) = (dat1 (F := Ideal) (V2 m ρ) c).arrAt 5 cfg1.N from W3_arr m ρ c 5,
    Cert.KernelIdeal.Reg1.final (V2 m ρ) c, V2_arg1, V2_arg2, V2_arg5, V2_bias, V2_v2]
  rfl

/-! ## The result -/

/-- At the run's last boundary the result array holds the attention map of the seven argument arrays as launched. -/
theorem value (c : Dev nD) :
    (W4 m ρ c (Proc.devRef .tc main_v4) : S16x4096x256.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [show (W4 m ρ c (Proc.devRef .tc main_v4) : S16x4096x256.Idx → EReal) = (dat2 (F := Ideal) (V3 m ρ) c).arrAt 4 cfg2.N
    from W4_arr m ρ c 4, Cert.KernelIdeal.Reg2.final (V3 m ρ) c, V3_arg0, V3_arg3, V3_bias, V3_v3]
  rfl

end Cert.KernelIdeal.KValue

end
-- ==== Proof.RefValue.lean ====
/-
  The reference's result, read index by index at the ideal values: its seventy host operations compose to the
  attention map of the specification. Its logistic is spelt 1 / (1 + exp(−x)), which is the logistic function's own
  definition on the extended reals; its products and sums are plain sums over the contracted or reduced coordinate; its
  column maximum is the fold of max from −∞, and the further maximum with −∞ changes nothing.
-/
import proofs.«109760_j35330400977338_1_alg».proof.Proof.Gen.ReferenceIdeal.Run
import proofs.«109760_j35330400977338_1_alg».proof.Proof.Gen.ReferenceIdeal.Read
import proofs.«109760_j35330400977338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## The three constants -/

/-- The pattern of one is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- The pattern of −∞ is the least extended real. -/
theorem neg_inf_f32 : Ideal.ofBits .f32 0xFF800000#32 = ⊥ := by simp [Ideal.ofBits, Ideal.ieee]

/-- The logistic function as the reference spells it, 1 / (1 + exp(−x)), is the logistic function. -/
theorem logistic_spelt (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.logistic x
  rw [one_f32]; rfl

/-! ## The feature maps -/

/-- The queries' features: stages %0–%9. -/
theorem v9_eq (x0 : (⟨S16x4096x256, .f32⟩ : BufTy).Contents (Elt Ideal)) (x3 : (⟨S256x256, .f32⟩ : BufTy).Contents (Elt Ideal))
    (x4 : (⟨S256, .f32⟩ : BufTy).Contents (Elt Ideal)) (β : Fin 16) (n : Fin 4096) (e : Fin 256) :
    val_main_v9 (F := Ideal) x0 x3 x4 (ix3 β n e) = Cert.Spec.feat x0 x3 (fun e => x4 (ix1 e)) β n e := by
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply, logistic_spelt]
  unfold Cert.Spec.feat
  have hl : ∀ k : Fin 256, lidx_main_v0 (ix3 β n e) k = ix3 β n k := fun k => funext fun a => Fin.ext (by
    match a with | ⟨0, _⟩ => rfl | ⟨1, _⟩ => rfl | ⟨2, _⟩ => rfl)
  have hr : ∀ k : Fin 256, ridx_main_v0 (ix3 β n e) k = ix2 k e := fun k => funext fun a => Fin.ext (by
    match a with | ⟨0, _⟩ => rfl | ⟨1, _⟩ => rfl)
  have hb : idx_main_v1 (idx_main_v2 (ix3 β n e)) = ix1 e := funext fun a => Fin.ext (by
    match a with | ⟨0, _⟩ => rfl)
  rw [hb, Finset.sum_congr rfl fun k _ => by rw [hl k, hr k]]
  rfl

section Stages

variable (x0 x1 x2 : (⟨S16x4096x256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (β : Fin 16) (n : Fin 4096) (d e : Fin 256)

/-- The queries' features φq. -/
abbrev fq : Cert.Spec.T3 := Cert.Spec.feat x0 x3 (fun e => x4 (ix1 e))
/-- The keys' features φk. -/
abbrev fk : Cert.Spec.T3 := Cert.Spec.feat x1 x5 (fun e => x6 (ix1 e))
/-- The scores y. -/
abbrev sc : Cert.Spec.T3 := Cert.Spec.scored (fk x1 x5 x6) (Cert.Spec.colSum (fk x1 x5 x6)) x2
/-- The competition weights w. -/
abbrev cw : Cert.Spec.T3 := Cert.Spec.compet (sc x1 x2 x5 x6)

/-- The keys' features: stages %10–%19. -/
theorem v19_eq : val_main_v19 (F := Ideal) x1 x5 x6 (ix3 β n e) = fk x1 x5 x6 β n e := by
  rw [val_main_v19_apply, val_main_v18_apply, val_main_cst_2_apply, val_main_v17_apply, val_main_v16_apply, val_main_cst_1_apply,
    val_main_v15_apply, val_main_v14_apply, val_main_v13_apply, val_main_v10_apply, val_main_v12_apply, val_main_v11_apply, logistic_spelt]
  unfold fk Cert.Spec.feat
  have hl : ∀ k : Fin 256, lidx_main_v10 (ix3 β n e) k = ix3 β n k := fun k => funext fun a => Fin.ext (by match a with | ⟨0, _⟩ => rfl | ⟨1, _⟩ => rfl | ⟨2, _⟩ => rfl)
  have hr : ∀ k : Fin 256, ridx_main_v10 (ix3 β n e) k = ix2 k e := fun k => funext fun a => Fin.ext (by match a with | ⟨0, _⟩ => rfl | ⟨1, _⟩ => rfl)
  have hb : idx_main_v11 (idx_main_v12 (ix3 β n e)) = ix1 e := funext fun a => Fin.ext (by match a with | ⟨0, _⟩ => rfl)
  rw [hb, Finset.sum_congr rfl fun k _ => by rw [hl k, hr k]]
  rfl

/-! ## The keys' column sums, the scores, their column maxima and the competition weights -/

/-- The column sums s of the keys' features: stage %20, a sum from zero. -/
theorem v20_eq : val_main_v20 (F := Ideal) x1 x5 x6 (ix2 β e) = Cert.Spec.colSum (fk x1 x5 x6) β e := by
  rw [val_main_v20_apply, val_main_cst_3_apply, Ideal.ofBits_def, Ideal.ofBits_zero_f32, zero_add]
  unfold Cert.Spec.colSum
  refine Finset.sum_congr rfl fun k _ => ?_
  rw [show idx_main_v20 (ix2 β e) k = ix3 β k e from funext fun a => Fin.ext (by match a with | ⟨0, _⟩ => rfl | ⟨1, _⟩ => rfl | ⟨2, _⟩ => rfl), v19_eq]

/-- The keys' features over their normalizer: stages %21–%25. -/
theorem v25_eq : val_main_v25 (F := Ideal) x1 x5 x6 (ix3 β n e)
    = Ideal.div (fk x1 x5 x6 β n e) (Cert.Spec.colSum (fk x1 x5 x6) β e + Cert.Spec.eps) := by
  rw [val_main_v25_apply, val_main_v24_apply, val_main_v23_apply, val_main_v22_apply, val_main_cst_4_apply, val_main_v21_apply, v19_eq,
    show idx_main_v21 (idx_main_v24 (ix3 β n e)) = ix2 β e from funext fun a => Fin.ext (by match a with | ⟨0, _⟩ => rfl | ⟨1, _⟩ => rfl), v20_eq]
  unfold Cert.Spec.eps
  rfl

/-- The scores: stage %32. -/
theorem v32_eq : val_main_v32 (F := Ideal) x1 x2 x5 x6 (ix3 β n e) = sc x1 x2 x5 x6 β n e := by
  rw [val_main_v32_apply, v25_eq]
  rfl

/-- The largest score of a column: stages %33–%35, the fold of max from −∞ and one more maximum with −∞. -/
theorem v35_eq : val_main_v35 (F := Ideal) x1 x2 x5 x6 (ix2 β e) = Cert.Spec.colMax (sc x1 x2 x5 x6) β e := by
  have h : S16x4096x256.Reduces [1] S16x256 := by decide
  have hfun : ∀ k : Fin 4096, val_main_v32 (F := Ideal) x1 x2 x5 x6 (h.lift (ix2 β e) k) = sc x1 x2 x5 x6 β k e := fun k => by
    rw [show h.lift (ix2 β e) k = ix3 β k e from funext fun a => Fin.ext (by match a with | ⟨0, _⟩ => rfl | ⟨1, _⟩ => rfl | ⟨2, _⟩ => rfl), v32_eq]
  rw [val_main_v35_apply, val_main_v34_apply, val_main_cst_8_apply, Ideal.ofBits_def, neg_inf_f32, Ideal.maximumf_def,
    max_eq_right bot_le]
  unfold val_main_v33
  rw [Host.reduce_eq_fold_single FloatOps.maximumf _ _ _ h _, val_main_cst_7_apply, Ideal.ofBits_def, neg_inf_f32]
  unfold Cert.Spec.colMax
  exact Finset.fold_congr fun k _ => hfun k

/-- The shifted scores' exponentials: stages %36–%39. -/
theorem v39_eq : val_main_v39 (F := Ideal) x1 x2 x5 x6 (ix3 β n e)
    = Ideal.exp (sc x1 x2 x5 x6 β n e - Cert.Spec.colMax (sc x1 x2 x5 x6) β e) := by
  rw [val_main_v39_apply, val_main_v38_apply, val_main_v37_apply, val_main_v36_apply, v32_eq,
    show idx_main_v36 (idx_main_v37 (ix3 β n e)) = ix2 β e from funext fun a => Fin.ext (by match a with | ⟨0, _⟩ => rfl | ⟨1, _⟩ => rfl), v35_eq]
  rfl

/-- Their column sums: stage %40, a sum from zero. -/
theorem v40_eq : val_main_v40 (F := Ideal) x1 x2 x5 x6 (ix2 β e)
    = ∑ n' : Fin 4096, Ideal.exp (sc x1 x2 x5 x6 β n' e - Cert.Spec.colMax (sc x1 x2 x5 x6) β e) := by
  rw [val_main_v40_apply, val_main_cst_9_apply, Ideal.ofBits_def, Ideal.ofBits_zero_f32, zero_add]
  refine Finset.sum_congr rfl fun k _ => ?_
  rw [show idx_main_v40 (ix2 β e) k = ix3 β k e from funext fun a => Fin.ext (by match a with | ⟨0, _⟩ => rfl | ⟨1, _⟩ => rfl | ⟨2, _⟩ => rfl), v39_eq]

/-- The competition weights: stages %41–%43. -/
theorem v43_eq : val_main_v43 (F := Ideal) x1 x2 x5 x6 (ix3 β n e) = cw x1 x2 x5 x6 β n e := by
  rw [val_main_v43_apply, val_main_v42_apply, val_main_v41_apply, v39_eq,
    show idx_main_v41 (idx_main_v42 (ix3 β n e)) = ix2 β e from funext fun a => Fin.ext (by match a with | ⟨0, _⟩ => rfl | ⟨1, _⟩ => rfl), v40_eq]
  rfl

/-! ## The state, the normalized queries' features, the aggregate, the gate and the result -/

/-- The state matrix: stage %44, features against weights over the positions. -/
theorem v44_eq : val_main_v44 (F := Ideal) x1 x2 x5 x6 (ix3 β d e) = Cert.Spec.kv (fk x1 x5 x6) (cw x1 x2 x5 x6) β d e := by
  rw [val_main_v44_apply]
  unfold Cert.Spec.kv
  refine Finset.sum_congr rfl fun k _ => ?_
  rw [show lidx_main_v44 (ix3 β d e) k = ix3 β k d from funext fun a => Fin.ext (by match a with | ⟨0, _⟩ => rfl | ⟨1, _⟩ => rfl | ⟨2, _⟩ => rfl),
    show ridx_main_v44 (ix3 β d e) k = ix3 β k e from funext fun a => Fin.ext (by match a with | ⟨0, _⟩ => rfl | ⟨1, _⟩ => rfl | ⟨2, _⟩ => rfl), v19_eq, v43_eq]

/-- The queries' row sums r: stage %26, a sum from zero. -/
theorem v26_eq : val_main_v26 (F := Ideal) x0 x3 x4 (ix2 β n) = Cert.Spec.rowSum (fq x0 x3 x4) β n := by
  rw [val_main_v26_apply, val_main_cst_5_apply, Ideal.ofBits_def, Ideal.ofBits_zero_f32, zero_add]
  unfold Cert.Spec.rowSum
  refine Finset.sum_congr rfl fun k _ => ?_
  rw [show idx_main_v26 (ix2 β n) k = ix3 β n k from funext fun a => Fin.ext (by match a with | ⟨0, _⟩ => rfl | ⟨1, _⟩ => rfl | ⟨2, _⟩ => rfl), v9_eq]

/-- The same row sums once more: stage %46. -/
theorem v46_eq : val_main_v46 (F := Ideal) x0 x3 x4 (ix2 β n) = Cert.Spec.rowSum (fq x0 x3 x4) β n := by
  rw [val_main_v46_apply, val_main_cst_10_apply, Ideal.ofBits_def, Ideal.ofBits_zero_f32, zero_add]
  unfold Cert.Spec.rowSum
  refine Finset.sum_congr rfl fun k _ => ?_
  rw [show idx_main_v46 (ix2 β n) k = ix3 β n k from funext fun a => Fin.ext (by match a with | ⟨0, _⟩ => rfl | ⟨1, _⟩ => rfl | ⟨2, _⟩ => rfl), v9_eq]

/-- The queries' features over their normalizer: stages %27–%31. -/
theorem v31_eq : val_main_v31 (F := Ideal) x0 x3 x4 (ix3 β n e)
    = Ideal.div (fq x0 x3 x4 β n e) (Cert.Spec.rowSum (fq x0 x3 x4) β n + Cert.Spec.eps) := by
  rw [val_main_v31_apply, val_main_v30_apply, val_main_v29_apply, val_main_v28_apply, val_main_cst_6_apply, val_main_v27_apply, v9_eq,
    show idx_main_v27 (idx_main_v30 (ix3 β n e)) = ix2 β n from funext fun a => Fin.ext (by match a with | ⟨0, _⟩ => rfl | ⟨1, _⟩ => rfl), v26_eq]
  unfold Cert.Spec.eps
  rfl

/-- The aggregate: stage %45, normalized features against the state over the features. -/
theorem v45_eq : val_main_v45 (F := Ideal) x0 x1 x2 x3 x4 x5 x6 (ix3 β n e)
    = ∑ k : Fin 256, Ideal.div (fq x0 x3 x4 β n k) (Cert.Spec.rowSum (fq x0 x3 x4) β n + Cert.Spec.eps)
        * Cert.Spec.kv (fk x1 x5 x6) (cw x1 x2 x5 x6) β k e := by
  rw [val_main_v45_apply]
  refine Finset.sum_congr rfl fun k _ => ?_
  rw [show lidx_main_v45 (ix3 β n e) k = ix3 β n k from funext fun a => Fin.ext (by match a with | ⟨0, _⟩ => rfl | ⟨1, _⟩ => rfl | ⟨2, _⟩ => rfl),
    show ridx_main_v45 (ix3 β n e) k = ix3 β k e from funext fun a => Fin.ext (by match a with | ⟨0, _⟩ => rfl | ⟨1, _⟩ => rfl | ⟨2, _⟩ => rfl), v31_eq, v44_eq]

/-- The gate: stages %47–%54, the logistic function of the row sum. -/
theorem v54_eq : val_main_v54 (F := Ideal) x0 x3 x4 (ix3 β n e) = Ideal.logistic (Cert.Spec.rowSum (fq x0 x3 x4) β n) := by
  rw [val_main_v54_apply, val_main_v53_apply, val_main_v52_apply, val_main_cst_12_apply, val_main_v51_apply, val_main_v50_apply,
    val_main_cst_11_apply, val_main_v49_apply, val_main_v48_apply, val_main_v47_apply, logistic_spelt,
    show idx_main_v47 (idx_main_v54 (ix3 β n e)) = ix2 β n from funext fun a => Fin.ext (by match a with | ⟨0, _⟩ => rfl | ⟨1, _⟩ => rfl), v46_eq]

/-- The result: stage %55, the gate times the aggregate. -/
theorem v55_eq : val_main_v55 (F := Ideal) x0 x1 x2 x3 x4 x5 x6 (ix3 β n e)
    = Cert.Spec.result (fq x0 x3 x4) (Cert.Spec.kv (fk x1 x5 x6) (cw x1 x2 x5 x6)) β n e := by
  rw [val_main_v55_apply, v54_eq, v45_eq]
  rfl

end Stages

/-- The reference's last stage, as a function of the seven argument arrays, is the specification's map. -/
theorem ref_eq (x0 x1 x2 : (⟨S16x4096x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) :
    val_main_v55 (F := Ideal) x0 x1 x2 x3 x4 x5 x6 = Cert.Spec.G x0 x1 x2 x3 x4 x5 x6 := by
  funext j
  obtain ⟨β, n, e, rfl⟩ : ∃ (β : Fin 16) (n : Fin 4096) (e : Fin 256), j = ix3 β n e := ⟨j 0, j 1, j 2, eq_ix3 j⟩
  rw [v55_eq]
  unfold Cert.Spec.G
  rfl

end Cert.ReferenceIdeal.RefValue

end
-- ==== Proof.lean ====
/-
  The certificate of the three-stage linear attention kernel against its plain reference, over the extended reals.

  Both programs compute, from queries Q, keys K, values V [16, 4096, 256], two weight matrices and two bias vectors,
    R[β, n, e] = σ(Σ_d φq[β, n, d]) · Σ_d (φq[β, n, d] / (Σ_d' φq[β, n, d'] + ε)) · kv[β, d, e],
    kv[β, d, e] = Σ_n φk[β, n, d] · softmax_n(φk[β, n, e] / (Σ_n' φk[β, n', e] + ε) · V[β, n, e]),
  with φq = σ(Q Wq + bq), φk = σ(K Wk + bk) and σ the logistic function. The kernel does it in three regions of sixteen
  grid points each (one batch per point: the column sums of φk; the state matrices kv; the gated aggregate), narrowing
  matrix operands before each product, which is the identity on extended reals; the reference in seventy host operations
  over the whole arrays. On the extended reals the two are one function: a product into a zero accumulator and a
  dot_general are the same plain sum, a lane reduction and a host reduction the same sum or the same fold of max from −∞,
  and the logistic operation is by definition 1 / (1 + exp(−x)), which is how the reference spells it. No law used here
  needs the inputs finite.

  The frames of the two kernel programs are the generated ones; the reference's frame is its generated run with the
  result dropped; no operation was rewritten by the idealization, so there is nothing to preserve.
-/
import proofs.«109760_j35330400977338_1_alg».proof.Defs
import proofs.«109760_j35330400977338_1_alg».proof.Proof.Gen.Kernel
import proofs.«109760_j35330400977338_1_alg».proof.Proof.Gen.Kernel.Frame
import proofs.«109760_j35330400977338_1_alg».proof.Proof.Gen.KernelIdeal
import proofs.«109760_j35330400977338_1_alg».proof.Proof.Gen.KernelIdeal.Frame
import proofs.«109760_j35330400977338_1_alg».proof.Proof.Gen.ReferenceIdeal
import proofs.«109760_j35330400977338_1_alg».proof.Proof.Gen.ReferenceIdeal.Run
import proofs.«109760_j35330400977338_1_alg».proof.Proof.Gen.ReferenceIdeal.Read
import proofs.«109760_j35330400977338_1_alg».proof.Proof.Gen.Pre_finite_inputs
import proofs.«109760_j35330400977338_1_alg».proof.Proof.KRun
import proofs.«109760_j35330400977338_1_alg».proof.Proof.KValue
import proofs.«109760_j35330400977338_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the attention map of its arguments (the three regions'
    values composed) and the reference's at its operations' composed term, which is the same map of arguments that
    agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KValue.value m ρ c), (h c).2⟩)
      (Cert.KernelIdeal.RunV.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.RefValue.ref_eq, (hagree c).1, (hagree c).2.1,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
